-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024x3 : Shape := ⟨3, ![4096, 1024, 3]⟩
abbrev S2048 : Shape := ⟨1, ![2048]⟩
abbrev S4096x3x64 : Shape := ⟨3, ![4096, 3, 64]⟩
abbrev S4096x1x64 : Shape := ⟨3, ![4096, 1, 64]⟩
abbrev S4096x64x64 : Shape := ⟨3, ![4096, 64, 64]⟩
abbrev S4096x64x3 : Shape := ⟨3, ![4096, 64, 3]⟩
abbrev S4096x1x3 : Shape := ⟨3, ![4096, 1, 3]⟩
abbrev S_ : Shape := ⟨0, ![]⟩

class Facts : Prop where
  bcast_S_S4096x1024x3 : S_.BroadcastsInDim S4096x1024x3 (![] : Fin 0 → Fin S4096x1024x3.rank)
  reducesTo_S4096x1024x3_S_d0_1_2 : S4096x1024x3.ReducesTo [0, 1, 2] S_
  h_S_ : 0 < S_.numel
  bcast_S_S4096x3x64 : S_.BroadcastsInDim S4096x3x64 (![] : Fin 0 → Fin S4096x3x64.rank)
  reducesTo_S4096x3x64_S_d0_1_2 : S4096x3x64.ReducesTo [0, 1, 2] S_
  bcast_S_S4096x1x64 : S_.BroadcastsInDim S4096x1x64 (![] : Fin 0 → Fin S4096x1x64.rank)
  reducesTo_S4096x1x64_S_d0_1_2 : S4096x1x64.ReducesTo [0, 1, 2] S_
  bcast_S_S4096x64x64 : S_.BroadcastsInDim S4096x64x64 (![] : Fin 0 → Fin S4096x64x64.rank)
  reducesTo_S4096x64x64_S_d0_1_2 : S4096x64x64.ReducesTo [0, 1, 2] S_
  bcast_S_S4096x64x3 : S_.BroadcastsInDim S4096x64x3 (![] : Fin 0 → Fin S4096x64x3.rank)
  reducesTo_S4096x64x3_S_d0_1_2 : S4096x64x3.ReducesTo [0, 1, 2] S_
  bcast_S_S4096x1x3 : S_.BroadcastsInDim S4096x1x3 (![] : Fin 0 → Fin S4096x1x3.rank)
  reducesTo_S4096x1x3_S_d0_1_2 : S4096x1x3.ReducesTo [0, 1, 2] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg1 : IVec S2048 32) (main_arg8 : FVec F S4096x64x3 .f32) (main_arg9 : FVec F S4096x1x3 .f32) (main_v33 : IVec S_ 1) : IVec S_ 1 :=
  let main_v34 : FVec F S4096x64x3 .f32 := Host.absf main_arg8
  let main_cst_12 : FVec F S_ .f32 := constant S_ .f32 0x7F800000#32
  let main_v35 : FVec F S4096x64x3 .f32 := broadcastInDim S4096x64x3 ![] bcast_S_S4096x64x3 main_cst_12
  let main_v36 : IVec S4096x64x3 1 := cmpf .olt main_v34 main_v35
  let main_c_13 : IVec S_ 1 := constantI S_ 1 1#1
  let main_v37 : IVec S_ 1 := (fun x v => Host.reduce IntOp.andi x v reducesTo_S4096x64x3_S_d0_1_2 h_S_) main_v36 main_c_13
  let main_v38 : IVec S_ 1 := andi main_v33 main_v37
  let main_v39 : FVec F S4096x1x3 .f32 := Host.absf main_arg9
  let main_cst_14 : FVec F S_ .f32 := constant S_ .f32 0x7F800000#32
  let main_v40 : FVec F S4096x1x3 .f32 := broadcastInDim S4096x1x3 ![] bcast_S_S4096x1x3 main_cst_14
  let main_v41 : IVec S4096x1x3 1 := cmpf .olt main_v39 main_v40
  let main_c_15 : IVec S_ 1 := constantI S_ 1 1#1
  let main_v42 : IVec S_ 1 := (fun x v => Host.reduce IntOp.andi x v reducesTo_S4096x1x3_S_d0_1_2 h_S_) main_v41 main_c_15
  let main_v43 : IVec S_ 1 := andi main_v38 main_v42
  let main_c_16 : IVec S_ 32 := constantI S_ 32 0#32
  let main_v44 : IVec S2048 32 := broadcastInDim S2048 ![] bcast_S_S2048 main_c_16
  let main_v45 : IVec S2048 1 := cmpi .sge main_arg1 main_v44
  let main_c_17 : IVec S_ 32 := constantI S_ 32 4096#32
  let main_v46 : IVec S2048 32 := broadcastInDim S2048 ![] bcast_S_S2048 main_c_17
  let main_v47 : IVec S2048 1 := cmpi .slt main_arg1 main_v46
  let main_v48 : IVec S2048 1 := andi main_v45 main_v47
  let main_c_18 : IVec S_ 1 := constantI S_ 1 1#1
  let main_v49 : IVec S_ 1 := (fun x v => Host.reduce IntOp.andi x v reducesTo_S2048_S_d0 h_S_) main_v48 main_c_18
  let main_v50 : IVec S_ 1 := andi main_v43 main_v49
  main_v50

def fn_part1 {F : FTy → Type} [FloatOps F] (main_arg1 : IVec S2048 32) (main_arg5 : FVec F S4096x1x64 .f32) (main_arg6 : FVec F S4096x64x64 .f32) (main_arg7 : FVec F S4096x1x64 .f32) (main_arg8 : FVec F S4096x64x3 .f32) (main_arg9 : FVec F S4096x1x3 .f32) (main_v13 : IVec S_ 1) (main_v16 : IVec S4096x64x64 1) : IVec S_ 1 :=
  let main_c_5 : IVec S_ 1 := constantI S_ 1 1#1
  let main_v17 : IVec S_ 1 := (fun x v => Host.reduce IntOp.andi x v reducesTo_S4096x64x64_S_d0_1_2 h_S_) main_v16 main_c_5
  let main_v18 : IVec S_ 1 := andi main_v13 main_v17
  let main_v19 : FVec F S4096x1x64 .f32 := Host.absf main_arg5
  let main_cst_6 : FVec F S_ .f32 := constant S_ .f32 0x7F800000#32
  let main_v20 : FVec F S4096x1x64 .f32 := broadcastInDim S4096x1x64 ![] bcast_S_S4096x1x64 main_cst_6
  let main_v21 : IVec S4096x1x64 1 := cmpf .olt main_v19 main_v20
  let main_c_7 : IVec S_ 1 := constantI S_ 1 1#1
  let main_v22 : IVec S_ 1 := (fun x v => Host.reduce IntOp.andi x v reducesTo_S4096x1x64_S_d0_1_2 h_S_) main_v21 main_c_7
  let main_v23 : IVec S_ 1 := andi main_v18 main_v22
  let main_v24 : FVec F S4096x64x64 .f32 := Host.absf main_arg6
  let main_cst_8 : FVec F S_ .f32 := constant S_ .f32 0x7F800000#32
  let main_v25 : FVec F S4096x64x64 .f32 := broadcastInDim S4096x64x64 ![] bcast_S_S4096x64x64 main_cst_8
  let main_v26 : IVec S4096x64x64 1 := cmpf .olt main_v24 main_v25
  let main_c_9 : IVec S_ 1 := constantI S_ 1 1#1
  let main_v27 : IVec S_ 1 := (fun x v => Host.reduce IntOp.andi x v reducesTo_S4096x64x64_S_d0_1_2 h_S_) main_v26 main_c_9
  let main_v28 : IVec S_ 1 := andi main_v23 main_v27
  let main_v29 : FVec F S4096x1x64 .f32 := Host.absf main_arg7
  let main_cst_10 : FVec F S_ .f32 := constant S_ .f32 0x7F800000#32
  let main_v30 : FVec F S4096x1x64 .f32 := broadcastInDim S4096x1x64 ![] bcast_S_S4096x1x64 main_cst_10
  let main_v31 : IVec S4096x1x64 1 := cmpf .olt main_v29 main_v30
  let main_c_11 : IVec S_ 1 := constantI S_ 1 1#1
  let main_v32 : IVec S_ 1 := (fun x v => Host.reduce IntOp.andi x v reducesTo_S4096x1x64_S_d0_1_2 h_S_) main_v31 main_c_11
  let main_v33 : IVec S_ 1 := andi main_v28 main_v32
  fn_part2 (F := F) main_arg1 main_arg8 main_arg9 main_v33

def fn {F : FTy → Type} [FloatOps F] (main_arg0 : FVec F S4096x1024x3 .f32) (main_arg1 : IVec S2048 32) (main_arg2 : FVec F S4096x3x64 .f32) (main_arg3 : FVec F S4096x1x64 .f32) (main_arg4 : FVec F S4096x64x64 .f32) (main_arg5 : FVec F S4096x1x64 .f32) (main_arg6 : FVec F S4096x64x64 .f32) (main_arg7 : FVec F S4096x1x64 .f32) (main_arg8 : FVec F S4096x64x3 .f32) (main_arg9 : FVec F S4096x1x3 .f32) : IVec S_ 1 :=
  let main_v0 : FVec F S4096x1024x3 .f32 := Host.absf main_arg0
  let main_cst : FVec F S_ .f32 := constant S_ .f32 0x7F800000#32
  let main_v1 : FVec F S4096x1024x3 .f32 := broadcastInDim S4096x1024x3 ![] bcast_S_S4096x1024x3 main_cst
  let main_v2 : IVec S4096x1024x3 1 := cmpf .olt main_v0 main_v1
  let main_c : IVec S_ 1 := constantI S_ 1 1#1
  let main_v3 : IVec S_ 1 := (fun x v => Host.reduce IntOp.andi x v reducesTo_S4096x1024x3_S_d0_1_2 h_S_) main_v2 main_c
  let main_v4 : FVec F S4096x3x64 .f32 := Host.absf main_arg2
  let main_cst_0 : FVec F S_ .f32 := constant S_ .f32 0x7F800000#32
  let main_v5 : FVec F S4096x3x64 .f32 := broadcastInDim S4096x3x64 ![] bcast_S_S4096x3x64 main_cst_0
  let main_v6 : IVec S4096x3x64 1 := cmpf .olt main_v4 main_v5
  let main_c_1 : IVec S_ 1 := constantI S_ 1 1#1
  let main_v7 : IVec S_ 1 := (fun x v => Host.reduce IntOp.andi x v reducesTo_S4096x3x64_S_d0_1_2 h_S_) main_v6 main_c_1
  let main_v8 : IVec S_ 1 := andi main_v3 main_v7
  let main_v9 : FVec F S4096x1x64 .f32 := Host.absf main_arg3
  let main_cst_2 : FVec F S_ .f32 := constant S_ .f32 0x7F800000#32
  let main_v10 : FVec F S4096x1x64 .f32 := broadcastInDim S4096x1x64 ![] bcast_S_S4096x1x64 main_cst_2
  let main_v11 : IVec S4096x1x64 1 := cmpf .olt main_v9 main_v10
  let main_c_3 : IVec S_ 1 := constantI S_ 1 1#1
  let main_v12 : IVec S_ 1 := (fun x v => Host.reduce IntOp.andi x v reducesTo_S4096x1x64_S_d0_1_2 h_S_) main_v11 main_c_3
  let main_v13 : IVec S_ 1 := andi main_v8 main_v12
  let main_v14 : FVec F S4096x64x64 .f32 := Host.absf main_arg4
  let main_cst_4 : FVec F S_ .f32 := constant S_ .f32 0x7F800000#32
  let main_v15 : FVec F S4096x64x64 .f32 := broadcastInDim S4096x64x64 ![] bcast_S_S4096x64x64 main_cst_4
  let main_v16 : IVec S4096x64x64 1 := cmpf .olt main_v14 main_v15
  fn_part1 (F := F) main_arg1 main_arg5 main_arg6 main_arg7 main_arg8 main_arg9 main_v13 main_v16
-- ==== Kernel.lean ====
abbrev S4096x1024x3 : Shape := ⟨3, ![4096, 1024, 3]⟩
abbrev S2048 : Shape := ⟨1, ![2048]⟩
abbrev S4096x3x64 : Shape := ⟨3, ![4096, 3, 64]⟩
abbrev S4096x1x64 : Shape := ⟨3, ![4096, 1, 64]⟩
abbrev S4096x64x64 : Shape := ⟨3, ![4096, 64, 64]⟩
abbrev S4096x64x3 : Shape := ⟨3, ![4096, 64, 3]⟩
abbrev S4096x1x3 : Shape := ⟨3, ![4096, 1, 3]⟩
abbrev S_ : Shape := ⟨0, ![]⟩
abbrev S4096x3x1024 : Shape := ⟨3, ![4096, 3, 1024]⟩
abbrev S4096x64x1 : Shape := ⟨3, ![4096, 64, 1]⟩
abbrev S4096x3x1 : Shape := ⟨3, ![4096, 3, 1]⟩
abbrev S2048x1 : Shape := ⟨2, ![2048, 1]⟩
abbrev S2048x3x1024 : Shape := ⟨3, ![2048, 3, 1024]⟩
abbrev S2048x64x3 : Shape := ⟨3, ![2048, 64, 3]⟩
abbrev S2048x64x64 : Shape := ⟨3, ![2048, 64, 64]⟩
abbrev S2048x3x64 : Shape := ⟨3, ![2048, 3, 64]⟩
abbrev S2048x64x1 : Shape := ⟨3, ![2048, 64, 1]⟩
abbrev S2048x64x128 : Shape := ⟨3, ![2048, 64, 128]⟩
abbrev S2048x3x1 : Shape := ⟨3, ![2048, 3, 1]⟩
abbrev S2048x3x128 : Shape := ⟨3, ![2048, 3, 128]⟩
abbrev S16x3x1024 : Shape := ⟨3, ![16, 3, 1024]⟩
abbrev S16x64x3 : Shape := ⟨3, ![16, 64, 3]⟩
abbrev S16x64x128 : Shape := ⟨3, ![16, 64, 128]⟩
abbrev S16x64x64 : Shape := ⟨3, ![16, 64, 64]⟩
abbrev S16x3x64 : Shape := ⟨3, ![16, 3, 64]⟩
abbrev S16x3x128 : Shape := ⟨3, ![16, 3, 128]⟩
abbrev S16x64x1 : Shape := ⟨3, ![16, 64, 1]⟩
abbrev S16x64x1024 : Shape := ⟨3, ![16, 64, 1024]⟩
abbrev S16x3x1 : Shape := ⟨3, ![16, 3, 1]⟩
abbrev S2048x1024x3 : Shape := ⟨3, ![2048, 1024, 3]⟩

abbrev nBuf : Space → Nat
  | .hbm => 119
  | .vmem => 20
  | .smem => 0
  | _ => 0

abbrev bufTy : (tb : Table) → Fin (tcTables nBuf tb) → BufTy
  | .hbm, ⟨0, _⟩ => ⟨S4096x1024x3, .f32⟩
  | .hbm, ⟨1, _⟩ => ⟨S2048, .i32⟩
  | .hbm, ⟨2, _⟩ => ⟨S4096x3x64, .f32⟩
  | .hbm, ⟨3, _⟩ => ⟨S4096x1x64, .f32⟩
  | .hbm, ⟨4, _⟩ => ⟨S4096x64x64, .f32⟩
  | .hbm, ⟨5, _⟩ => ⟨S4096x1x64, .f32⟩
  | .hbm, ⟨6, _⟩ => ⟨S4096x64x64, .f32⟩
  | .hbm, ⟨7, _⟩ => ⟨S4096x1x64, .f32⟩
  | .hbm, ⟨8, _⟩ => ⟨S4096x64x3, .f32⟩
  | .hbm, ⟨9, _⟩ => ⟨S4096x1x3, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S4096x3x1024, .f32⟩
  | .hbm, ⟨19, _⟩ => ⟨S4096x3x1024, .bf16⟩
  | .hbm, ⟨20, _⟩ => ⟨S4096x64x3, .f32⟩
  | .hbm, ⟨21, _⟩ => ⟨S4096x64x3, .bf16⟩
  | .hbm, ⟨22, _⟩ => ⟨S4096x64x64, .f32⟩
  | .hbm, ⟨23, _⟩ => ⟨S4096x64x64, .bf16⟩
  | .hbm, ⟨24, _⟩ => ⟨S4096x64x64, .f32⟩
  | .hbm, ⟨25, _⟩ => ⟨S4096x64x64, .bf16⟩
  | .hbm, ⟨26, _⟩ => ⟨S4096x3x64, .f32⟩
  | .hbm, ⟨27, _⟩ => ⟨S4096x3x64, .bf16⟩
  | .hbm, ⟨28, _⟩ => ⟨S4096x64x1, .f32⟩
  | .hbm, ⟨29, _⟩ => ⟨S4096x64x1, .f32⟩
  | .hbm, ⟨30, _⟩ => ⟨S4096x64x1, .f32⟩
  | .hbm, ⟨31, _⟩ => ⟨S4096x3x1, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S_, .i32⟩
  | .hbm, ⟨36, _⟩ => ⟨S2048, .i32⟩
  | .hbm, ⟨37, _⟩ => ⟨S2048, .i32⟩
  | .hbm, ⟨38, _⟩ => ⟨S2048, .i32⟩
  | .hbm, ⟨39, _⟩ => ⟨S2048x1, .i32⟩
  | .hbm, ⟨40, _⟩ => ⟨S2048x3x1024, .bf16⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x64x3, .bf16⟩
  | .hbm, ⟨50, _⟩ => ⟨S_, .i32⟩
  | .hbm, ⟨51, _⟩ => ⟨S2048, .i32⟩
  | .hbm, ⟨52, _⟩ => ⟨S2048, .i1⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .i32⟩
  | .hbm, ⟨57, _⟩ => ⟨S2048x1, .i32⟩
  | .hbm, ⟨58, _⟩ => ⟨S2048x64x64, .bf16⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S2048x64x64, .bf16⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S2048x3x64, .bf16⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x64x1, .f32⟩
  | .hbm, ⟨86, _⟩ => ⟨S2048x64x128, .f32⟩
  | .hbm, ⟨87, _⟩ => ⟨S_, .i32⟩
  | .hbm, ⟨88, _⟩ => ⟨S2048, .i32⟩
  | .hbm, ⟨89, _⟩ => ⟨S2048, .i1⟩
  | .hbm, ⟨90, _⟩ => ⟨S_, .i32⟩
  | .hbm, ⟨91, _⟩ => ⟨S2048, .i32⟩
  | .hbm, ⟨92, _⟩ => ⟨S2048, .i32⟩
  | .hbm, ⟨93, _⟩ => ⟨S2048, .i32⟩
  | .hbm, ⟨94, _⟩ => ⟨S2048x1, .i32⟩
  | .hbm, ⟨95, _⟩ => ⟨S2048x64x1, .f32⟩
  | .hbm, ⟨96, _⟩ => ⟨S2048x64x128, .f32⟩
  | .hbm, ⟨97, _⟩ => ⟨S_, .i32⟩
  | .hbm, ⟨98, _⟩ => ⟨S2048, .i32⟩
  | .hbm, ⟨99, _⟩ => ⟨S2048, .i1⟩
  | .hbm, ⟨100, _⟩ => ⟨S_, .i32⟩
  | .hbm, ⟨101, _⟩ => ⟨S2048, .i32⟩
  | .hbm, ⟨102, _⟩ => ⟨S2048, .i32⟩
  | .hbm, ⟨103, _⟩ => ⟨S2048, .i32⟩
  | .hbm, ⟨104, _⟩ => ⟨S2048x1, .i32⟩
  | .hbm, ⟨105, _⟩ => ⟨S2048x64x1, .f32⟩
  | .hbm, ⟨106, _⟩ => ⟨S2048x64x128, .f32⟩
  | .hbm, ⟨107, _⟩ => ⟨S_, .i32⟩
  | .hbm, ⟨108, _⟩ => ⟨S2048, .i32⟩
  | .hbm, ⟨109, _⟩ => ⟨S2048, .i1⟩
  | .hbm, ⟨110, _⟩ => ⟨S_, .i32⟩
  | .hbm, ⟨111, _⟩ => ⟨S2048, .i32⟩
  | .hbm, ⟨112, _⟩ => ⟨S2048, .i32⟩
  | .hbm, ⟨113, _⟩ => ⟨S2048, .i32⟩
  | .hbm, ⟨114, _⟩ => ⟨S2048x1, .i32⟩
  | .hbm, ⟨115, _⟩ => ⟨S2048x3x1, .f32⟩
  | .hbm, ⟨116, _⟩ => ⟨S2048x3x128, .f32⟩
  | .hbm, ⟨117, _⟩ => ⟨S2048x3x1024, .f32⟩
  | .hbm, ⟨118, _⟩ => ⟨S2048x1024x3, .f32⟩
  | .local _ .vmem, ⟨0, _⟩ => ⟨S16x3x1024, .bf16⟩
  | .local _ .vmem, ⟨1, _⟩ => ⟨S16x3x1024, .bf16⟩
  | .local _ .vmem, ⟨2, _⟩ => ⟨S16x64x3, .bf16⟩
  | .local _ .vmem, ⟨3, _⟩ => ⟨S16x64x3, .bf16⟩
  | .local _ .vmem, ⟨4, _⟩ => ⟨S16x64x128, .f32⟩
  | .local _ .vmem, ⟨5, _⟩ => ⟨S16x64x128, .f32⟩
  | .local _ .vmem, ⟨6, _⟩ => ⟨S16x64x64, .bf16⟩
  | .local _ .vmem, ⟨7, _⟩ => ⟨S16x64x64, .bf16⟩
  | .local _ .vmem, ⟨8, _⟩ => ⟨S16x64x128, .f32⟩
  | .local _ .vmem, ⟨9, _⟩ => ⟨S16x64x128, .f32⟩
  | .local _ .vmem, ⟨10, _⟩ => ⟨S16x64x64, .bf16⟩
  | .local _ .vmem, ⟨11, _⟩ => ⟨S16x64x64, .bf16⟩
  | .local _ .vmem, ⟨12, _⟩ => ⟨S16x64x128, .f32⟩
  | .local _ .vmem, ⟨13, _⟩ => ⟨S16x64x128, .f32⟩
  | .local _ .vmem, ⟨14, _⟩ => ⟨S16x3x64, .bf16⟩
  | .local _ .vmem, ⟨15, _⟩ => ⟨S16x3x64, .bf16⟩
  | .local _ .vmem, ⟨16, _⟩ => ⟨S16x3x128, .f32⟩
  | .local _ .vmem, ⟨17, _⟩ => ⟨S16x3x128, .f32⟩
  | .local _ .vmem, ⟨18, _⟩ => ⟨S16x3x1024, .f32⟩
  | .local _ .vmem, ⟨19, _⟩ => ⟨S16x3x1024, .f32⟩
  | _, _ => ⟨S4096x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_c_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_11 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_15 : Ref sig .tc := ⟨.hbm, 97, rfl⟩
abbrev main_v66 : Ref sig .tc := ⟨.hbm, 98, rfl⟩
abbrev main_v67 : Ref sig .tc := ⟨.hbm, 99, rfl⟩
abbrev main_c_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_17 : Ref sig .tc := ⟨.hbm, 107, rfl⟩
abbrev main_v74 : Ref sig .tc := ⟨.hbm, 108, rfl⟩
abbrev main_v75 : Ref sig .tc := ⟨.hbm, 109, rfl⟩
abbrev main_c_18 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x3x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x64x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x3x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S2048 : S_.BroadcastsInDim S2048 (![] : Fin 0 → Fin S2048.rank)
  transposes_S4096x1024x3_S4096x3x1024_0_2_1 : S4096x1024x3.Transposes [0, 2, 1] S4096x3x1024
  bitsLt_bf16_f32 : FTy.bits .bf16 < FTy.bits .f32
  transposes_S4096x3x64_S4096x64x3_0_2_1 : S4096x3x64.Transposes [0, 2, 1] S4096x64x3
  transposes_S4096x64x64_S4096x64x64_0_2_1 : S4096x64x64.Transposes [0, 2, 1] S4096x64x64
  transposes_S4096x64x3_S4096x3x64_0_2_1 : S4096x64x3.Transposes [0, 2, 1] S4096x3x64
  transposes_S4096x1x64_S4096x64x1_0_2_1 : S4096x1x64.Transposes [0, 2, 1] S4096x64x1
  transposes_S4096x1x3_S4096x3x1_0_2_1 : S4096x1x3.Transposes [0, 2, 1] S4096x3x1
  bcast_S2048_S2048x1_0 : S2048.BroadcastsInDim S2048x1 (![0] : Fin 1 → Fin S2048x1.rank)
  bcast_S2048x64x1_S2048x64x128_0_1_2 : S2048x64x1.BroadcastsInDim S2048x64x128 (![0, 1, 2] : Fin 3 → Fin S2048x64x128.rank)
  bcast_S2048x3x1_S2048x3x128_0_1_2 : S2048x3x1.BroadcastsInDim S2048x3x128 (![0, 1, 2] : Fin 3 → Fin S2048x3x128.rank)
  inb_S16x3x1024_S16x3x1024_0_0_0 : ∀ a, (![0, 0, 0] : Fin 3 → Nat) a + S16x3x1024.size a ≤ S16x3x1024.size a
  h_S16x3x1024 : 0 < S16x3x1024.numel
  shapeCasts_S16x3x1024_S16x3x1024 : S16x3x1024.ShapeCasts S16x3x1024
  inb_S16x64x128_S16x64x128_0_0_0 : ∀ a, (![0, 0, 0] : Fin 3 → Nat) a + S16x64x128.size a ≤ S16x64x128.size a
  h_S16x64x128 : 0 < S16x64x128.numel
  shapeCasts_S16x64x128_S16x64x128 : S16x64x128.ShapeCasts S16x64x128
  slices_S16x64x128_o0_0_0_S16x64x1 : S16x64x128.Slices ![0, 0, 0] S16x64x1
  inb_S16x64x3_S16x64x3_0_0_0 : ∀ a, (![0, 0, 0] : Fin 3 → Nat) a + S16x64x3.size a ≤ S16x64x3.size a
  h_S16x64x3 : 0 < S16x64x3.numel
  shapeCasts_S16x64x3_S16x64x3 : S16x64x3.ShapeCasts S16x64x3
  broadcasts_S16x64x1_S16x64x1024 : S16x64x1.Broadcasts S16x64x1024
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S16x3x128_S16x3x128_0_0_0 : ∀ a, (![0, 0, 0] : Fin 3 → Nat) a + S16x3x128.size a ≤ S16x3x128.size a
  h_S16x3x128 : 0 < S16x3x128.numel
  shapeCasts_S16x3x128_S16x3x128 : S16x3x128.ShapeCasts S16x3x128
  slices_S16x3x128_o0_0_0_S16x3x1 : S16x3x128.Slices ![0, 0, 0] S16x3x1
  inb_S16x3x64_S16x3x64_0_0_0 : ∀ a, (![0, 0, 0] : Fin 3 → Nat) a + S16x3x64.size a ≤ S16x3x64.size a
  h_S16x3x64 : 0 < S16x3x64.numel
  shapeCasts_S16x3x64_S16x3x64 : S16x3x64.ShapeCasts S16x3x64
  broadcasts_S16x3x1_S16x3x1024 : S16x3x1.Broadcasts S16x3x1024
  transposes_S2048x3x1024_S2048x1024x3_0_2_1 : S2048x3x1024.Transposes [0, 2, 1] S2048x1024x3
  gather_S4096x3x1024_S2048x1_S2048x3x1024_12_0_n_n_0_1_131024_wf : GatherDims.WF S4096x3x1024 S2048x1 S2048x3x1024 [1, 2] [0] [] [0] [] 1 ![1, 3, 1024]
  gather_S4096x64x3_S2048x1_S2048x64x3_12_0_n_n_0_1_1643_wf : GatherDims.WF S4096x64x3 S2048x1 S2048x64x3 [1, 2] [0] [] [0] [] 1 ![1, 64, 3]
  gather_S4096x64x64_S2048x1_S2048x64x64_12_0_n_n_0_1_16464_wf : GatherDims.WF S4096x64x64 S2048x1 S2048x64x64 [1, 2] [0] [] [0] [] 1 ![1, 64, 64]
  gather_S4096x3x64_S2048x1_S2048x3x64_12_0_n_n_0_1_1364_wf : GatherDims.WF S4096x3x64 S2048x1 S2048x3x64 [1, 2] [0] [] [0] [] 1 ![1, 3, 64]
  gather_S4096x64x1_S2048x1_S2048x64x1_12_0_n_n_0_1_1641_wf : GatherDims.WF S4096x64x1 S2048x1 S2048x64x1 [1, 2] [0] [] [0] [] 1 ![1, 64, 1]
  gather_S4096x3x1_S2048x1_S2048x3x1_12_0_n_n_0_1_131_wf : GatherDims.WF S4096x3x1 S2048x1 S2048x3x1 [1, 2] [0] [] [0] [] 1 ![1, 3, 1]
  dot_S16x64x3_S16x3x1024_S16x64x1024_2_1_1_2_0_0_wf : DotDims.WF S16x64x3 S16x3x1024 S16x64x1024 [2] [1] [1] [2] [0] [0]
  dot_S16x64x64_S16x64x1024_S16x64x1024_2_1_1_2_0_0_wf : DotDims.WF S16x64x64 S16x64x1024 S16x64x1024 [2] [1] [1] [2] [0] [0]
  dot_S16x3x64_S16x64x1024_S16x3x1024_2_1_1_2_0_0_wf : DotDims.WF S16x3x64 S16x64x1024 S16x3x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x1024.size a ≤ S2048x3x1024.size a
  hwx0_0 : ∀ i : grid0.Coords, EltTy.bits .bf16 = 32 ∨ (Rect.block (s := S2048x3x1024) S16x3x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x3.size a ≤ S2048x64x3.size a
  hwx0_1 : ∀ i : grid0.Coords, EltTy.bits .bf16 = 32 ∨ (Rect.block (s := S2048x64x3) S16x64x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x64x128.size a ≤ S2048x64x128.size a
  hwx0_2 : ∀ i : grid0.Coords, EltTy.bits .f32 = 32 ∨ (Rect.block (s := S2048x64x128) S16x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x64.size a ≤ S2048x64x64.size a
  hwx0_3 : ∀ i : grid0.Coords, EltTy.bits .bf16 = 32 ∨ (Rect.block (s := S2048x64x64) S16x64x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x64x128.size a ≤ S2048x64x128.size a
  hwx0_4 : ∀ i : grid0.Coords, EltTy.bits .f32 = 32 ∨ (Rect.block (s := S2048x64x128) S16x64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64x64.size a ≤ S2048x64x64.size a
  hwx0_5 : ∀ i : grid0.Coords, EltTy.bits .bf16 = 32 ∨ (Rect.block (s := S2048x64x64) S16x64x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x64x128.size a ≤ S2048x64x128.size a
  hwx0_6 : ∀ i : grid0.Coords, EltTy.bits .f32 = 32 ∨ (Rect.block (s := S2048x64x128) S16x64x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x3x64.size a ≤ S2048x3x64.size a
  hwx0_7 : ∀ i : grid0.Coords, EltTy.bits .bf16 = 32 ∨ (Rect.block (s := S2048x3x64) S16x3x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x3x128.size a ≤ S2048x3x128.size a
  hwx0_8 : ∀ i : grid0.Coords, EltTy.bits .f32 = 32 ∨ (Rect.block (s := S2048x3x128) S16x3x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x3x1024.size a ≤ S2048x3x1024.size a
  hwx0_9 : ∀ i : grid0.Coords, EltTy.bits .f32 = 32 ∨ (Rect.block (s := S2048x3x1024) S16x3x1024.size (cc0_transform_9 i) (hinb0_9 i)).WholeWords (EltTy.packing .f32)

variable [Facts₀]

def gather_S4096x3x1024_S2048x1_S2048x3x1024_12_0_n_n_0_1_131024 : GatherDims S4096x3x1024 S2048x1 S2048x3x1024 where
  offsetDims := [1, 2]
  collapsedSliceDims := [0]
  operandBatchingDims := []
  startIndicesBatchingDims := []
  startIndexMap := [0]
  indexVectorDim := 1
  sliceSizes := ![1, 3, 1024]
  wf := gather_S4096x3x1024_S2048x1_S2048x3x1024_12_0_n_n_0_1_131024_wf
def gather_S4096x64x3_S2048x1_S2048x64x3_12_0_n_n_0_1_1643 : GatherDims S4096x64x3 S2048x1 S2048x64x3 where
  offsetDims := [1, 2]
  collapsedSliceDims := [0]
  operandBatchingDims := []
  startIndicesBatchingDims := []
  startIndexMap := [0]
  indexVectorDim := 1
  sliceSizes := ![1, 64, 3]
  wf := gather_S4096x64x3_S2048x1_S2048x64x3_12_0_n_n_0_1_1643_wf
def gather_S4096x64x64_S2048x1_S2048x64x64_12_0_n_n_0_1_16464 : GatherDims S4096x64x64 S2048x1 S2048x64x64 where
  offsetDims := [1, 2]
  collapsedSliceDims := [0]
  operandBatchingDims := []
  startIndicesBatchingDims := []
  startIndexMap := [0]
  indexVectorDim := 1
  sliceSizes := ![1, 64, 64]
  wf := gather_S4096x64x64_S2048x1_S2048x64x64_12_0_n_n_0_1_16464_wf
def gather_S4096x3x64_S2048x1_S2048x3x64_12_0_n_n_0_1_1364 : GatherDims S4096x3x64 S2048x1 S2048x3x64 where
  offsetDims := [1, 2]
  collapsedSliceDims := [0]
  operandBatchingDims := []
  startIndicesBatchingDims := []
  startIndexMap := [0]
  indexVectorDim := 1
  sliceSizes := ![1, 3, 64]
  wf := gather_S4096x3x64_S2048x1_S2048x3x64_12_0_n_n_0_1_1364_wf
def gather_S4096x64x1_S2048x1_S2048x64x1_12_0_n_n_0_1_1641 : GatherDims S4096x64x1 S2048x1 S2048x64x1 where
  offsetDims := [1, 2]
  collapsedSliceDims := [0]
  operandBatchingDims := []
  startIndicesBatchingDims := []
  startIndexMap := [0]
  indexVectorDim := 1
  sliceSizes := ![1, 64, 1]
  wf := gather_S4096x64x1_S2048x1_S2048x64x1_12_0_n_n_0_1_1641_wf
def gather_S4096x3x1_S2048x1_S2048x3x1_12_0_n_n_0_1_131 : GatherDims S4096x3x1 S2048x1 S2048x3x1 where
  offsetDims := [1, 2]
  collapsedSliceDims := [0]
  operandBatchingDims := []
  startIndicesBatchingDims := []
  startIndexMap := [0]
  indexVectorDim := 1
  sliceSizes := ![1, 3, 1]
  wf := gather_S4096x3x1_S2048x1_S2048x3x1_12_0_n_n_0_1_131_wf
def dot_S16x64x3_S16x3x1024_S16x64x1024_2_1_1_2_0_0 : DotDims S16x64x3 S16x3x1024 S16x64x1024 where
  lhsContracting := [2]
  rhsContracting := [1]
  lhsNonContracting := [1]
  rhsNonContracting := [2]
  lhsBatch := [0]
  rhsBatch := [0]
  wf := dot_S16x64x3_S16x3x1024_S16x64x1024_2_1_1_2_0_0_wf
def dot_S16x64x64_S16x64x1024_S16x64x1024_2_1_1_2_0_0 : DotDims S16x64x64 S16x64x1024 S16x64x1024 where
  lhsContracting := [2]
  rhsContracting := [1]
  lhsNonContracting := [1]
  rhsNonContracting := [2]
  lhsBatch := [0]
  rhsBatch := [0]
  wf := dot_S16x64x64_S16x64x1024_S16x64x1024_2_1_1_2_0_0_wf
def dot_S16x3x64_S16x64x1024_S16x3x1024_2_1_1_2_0_0 : DotDims S16x3x64 S16x64x1024 S16x3x1024 where
  lhsContracting := [2]
  rhsContracting := [1]
  lhsNonContracting := [1]
  rhsNonContracting := [2]
  lhsBatch := [0]
  rhsBatch := [0]
  wf := dot_S16x3x64_S16x64x1024_S16x3x1024_2_1_1_2_0_0_wf

abbrev win0_0 : Pipeline.Window sig grid0 :=
  Pipeline.Window.ofSpec (Memref.whole main_v21) S16x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S16x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S16x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S16x64x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v65) S16x64x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S16x64x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v73) S16x64x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v49) S16x3x64.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v81) S16x3x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v82) S16x3x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x1024x3 : Shape := ⟨3, ![4096, 1024, 3]⟩
abbrev S2048 : Shape := ⟨1, ![2048]⟩
abbrev S4096x3x64 : Shape := ⟨3, ![4096, 3, 64]⟩
abbrev S4096x1x64 : Shape := ⟨3, ![4096, 1, 64]⟩
abbrev S4096x64x64 : Shape := ⟨3, ![4096, 64, 64]⟩
abbrev S4096x64x3 : Shape := ⟨3, ![4096, 64, 3]⟩
abbrev S4096x1x3 : Shape := ⟨3, ![4096, 1, 3]⟩
abbrev S_ : Shape := ⟨0, ![]⟩
abbrev S2048x1 : Shape := ⟨2, ![2048, 1]⟩
abbrev S2048x1024x3 : Shape := ⟨3, ![2048, 1024, 3]⟩
abbrev S2048x3x64 : Shape := ⟨3, ![2048, 3, 64]⟩
abbrev S2048x1024x64 : Shape := ⟨3, ![2048, 1024, 64]⟩
abbrev S2048x1x64 : Shape := ⟨3, ![2048, 1, 64]⟩
abbrev S2048x64x64 : Shape := ⟨3, ![2048, 64, 64]⟩
abbrev S2048x64x3 : Shape := ⟨3, ![2048, 64, 3]⟩
abbrev S2048x1x3 : Shape := ⟨3, ![2048, 1, 3]⟩

abbrev nBuf : Space → Nat
  | .hbm => 115
  | .vmem => 0
  | .smem => 0
  | _ => 0

abbrev bufTy : (tb : Table) → Fin (tcTables nBuf tb) → BufTy
  | .hbm, ⟨0, _⟩ => ⟨S4096x1024x3, .f32⟩
  | .hbm, ⟨1, _⟩ => ⟨S2048, .i32⟩
  | .hbm, ⟨2, _⟩ => ⟨S4096x3x64, .f32⟩
  | .hbm, ⟨3, _⟩ => ⟨S4096x1x64, .f32⟩
  | .hbm, ⟨4, _⟩ => ⟨S4096x64x64, .f32⟩
  | .hbm, ⟨5, _⟩ => ⟨S4096x1x64, .f32⟩
  | .hbm, ⟨6, _⟩ => ⟨S4096x64x64, .f32⟩
  | .hbm, ⟨7, _⟩ => ⟨S4096x1x64, .f32⟩
  | .hbm, ⟨8, _⟩ => ⟨S4096x64x3, .f32⟩
  | .hbm, ⟨9, _⟩ => ⟨S4096x1x3, .f32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S2048x1024x3, .f32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S2048x3x64, .f32⟩
  | .hbm, ⟨28, _⟩ => ⟨S2048x1024x64, .f32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S2048x1, .i32⟩
  | .hbm, ⟨37, _⟩ => ⟨S2048x1x64, .f32⟩
  | .hbm, ⟨38, _⟩ => ⟨S2048x1024x64, .f32⟩
  | .hbm, ⟨39, _⟩ => ⟨S2048x1024x64, .f32⟩
  | .hbm, ⟨40, _⟩ => ⟨S_, .f32⟩
  | .hbm, ⟨41, _⟩ => ⟨S2048x1024x64, .f32⟩
  | .hbm, ⟨42, _⟩ => ⟨S2048x1024x64, .f32⟩
  | .hbm, ⟨43, _⟩ => ⟨S2048x1024x64, .f32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x64x64, .f32⟩
  | .hbm, ⟨53, _⟩ => ⟨S2048x1024x64, .f32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S2048x1x64, .f32⟩
  | .hbm, ⟨63, _⟩ => ⟨S2048x1024x64, .f32⟩
  | .hbm, ⟨64, _⟩ => ⟨S2048x1024x64, .f32⟩
  | .hbm, ⟨65, _⟩ => ⟨S_, .f32⟩
  | .hbm, ⟨66, _⟩ => ⟨S2048x1024x64, .f32⟩
  | .hbm, ⟨67, _⟩ => ⟨S2048x1024x64, .f32⟩
  | .hbm, ⟨68, _⟩ => ⟨S2048x1024x64, .f32⟩
  | .hbm, ⟨69, _⟩ => ⟨S_, .i32⟩
  | .hbm, ⟨70, _⟩ => ⟨S2048, .i32⟩
  | .hbm, ⟨71, _⟩ => ⟨S2048, .i1⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S2048, .i32⟩
  | .hbm, ⟨76, _⟩ => ⟨S2048x1, .i32⟩
  | .hbm, ⟨77, _⟩ => ⟨S2048x64x64, .f32⟩
  | .hbm, ⟨78, _⟩ => ⟨S2048x1024x64, .f32⟩
  | .hbm, ⟨79, _⟩ => ⟨S_, .i32⟩
  | .hbm, ⟨80, _⟩ => ⟨S2048, .i32⟩
  | .hbm, ⟨81, _⟩ => ⟨S2048, .i1⟩
  | .hbm, ⟨82, _⟩ => ⟨S_, .i32⟩
  | .hbm, ⟨83, _⟩ => ⟨S2048, .i32⟩
  | .hbm, ⟨84, _⟩ => ⟨S2048, .i32⟩
  | .hbm, ⟨85, _⟩ => ⟨S2048, .i32⟩
  | .hbm, ⟨86, _⟩ => ⟨S2048x1, .i32⟩
  | .hbm, ⟨87, _⟩ => ⟨S2048x1x64, .f32⟩
  | .hbm, ⟨88, _⟩ => ⟨S2048x1024x64, .f32⟩
  | .hbm, ⟨89, _⟩ => ⟨S2048x1024x64, .f32⟩
  | .hbm, ⟨90, _⟩ => ⟨S_, .f32⟩
  | .hbm, ⟨91, _⟩ => ⟨S2048x1024x64, .f32⟩
  | .hbm, ⟨92, _⟩ => ⟨S2048x1024x64, .f32⟩
  | .hbm, ⟨93, _⟩ => ⟨S2048x1024x64, .f32⟩
  | .hbm, ⟨94, _⟩ => ⟨S_, .i32⟩
  | .hbm, ⟨95, _⟩ => ⟨S2048, .i32⟩
  | .hbm, ⟨96, _⟩ => ⟨S2048, .i1⟩
  | .hbm, ⟨97, _⟩ => ⟨S_, .i32⟩
  | .hbm, ⟨98, _⟩ => ⟨S2048, .i32⟩
  | .hbm, ⟨99, _⟩ => ⟨S2048, .i32⟩
  | .hbm, ⟨100, _⟩ => ⟨S2048, .i32⟩
  | .hbm, ⟨101, _⟩ => ⟨S2048x1, .i32⟩
  | .hbm, ⟨102, _⟩ => ⟨S2048x64x3, .f32⟩
  | .hbm, ⟨103, _⟩ => ⟨S2048x1024x3, .f32⟩
  | .hbm, ⟨104, _⟩ => ⟨S_, .i32⟩
  | .hbm, ⟨105, _⟩ => ⟨S2048, .i32⟩
  | .hbm, ⟨106, _⟩ => ⟨S2048, .i1⟩
  | .hbm, ⟨107, _⟩ => ⟨S_, .i32⟩
  | .hbm, ⟨108, _⟩ => ⟨S2048, .i32⟩
  | .hbm, ⟨109, _⟩ => ⟨S2048, .i32⟩
  | .hbm, ⟨110, _⟩ => ⟨S2048, .i32⟩
  | .hbm, ⟨111, _⟩ => ⟨S2048x1, .i32⟩
  | .hbm, ⟨112, _⟩ => ⟨S2048x1x3, .f32⟩
  | .hbm, ⟨113, _⟩ => ⟨S2048x1024x3, .f32⟩
  | .hbm, ⟨114, _⟩ => ⟨S2048x1024x3, .f32⟩
  | _, _ => ⟨S4096x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_c_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_c_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_15 : Ref sig .tc := ⟨.hbm, 94, rfl⟩
abbrev main_v67 : Ref sig .tc := ⟨.hbm, 95, rfl⟩
abbrev main_v68 : Ref sig .tc := ⟨.hbm, 96, rfl⟩
abbrev main_c_16 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S2048x1_0 : S2048.BroadcastsInDim S2048x1 (![0] : Fin 1 → Fin S2048x1.rank)
  bcast_S2048x1x64_S2048x1024x64_0_1_2 : S2048x1x64.BroadcastsInDim S2048x1024x64 (![0, 1, 2] : Fin 3 → Fin S2048x1024x64.rank)
  bcast_S_S2048x1024x64 : S_.BroadcastsInDim S2048x1024x64 (![] : Fin 0 → Fin S2048x1024x64.rank)
  bcast_S2048x1x3_S2048x1024x3_0_1_2 : S2048x1x3.BroadcastsInDim S2048x1024x3 (![0, 1, 2] : Fin 3 → Fin S2048x1024x3.rank)
  gather_S4096x1024x3_S2048x1_S2048x1024x3_12_0_n_n_0_1_110243_wf : GatherDims.WF S4096x1024x3 S2048x1 S2048x1024x3 [1, 2] [0] [] [0] [] 1 ![1, 1024, 3]
  gather_S4096x3x64_S2048x1_S2048x3x64_12_0_n_n_0_1_1364_wf : GatherDims.WF S4096x3x64 S2048x1 S2048x3x64 [1, 2] [0] [] [0] [] 1 ![1, 3, 64]
  dot_S2048x1024x3_S2048x3x64_S2048x1024x64_2_1_1_2_0_0_wf : DotDims.WF S2048x1024x3 S2048x3x64 S2048x1024x64 [2] [1] [1] [2] [0] [0]
  gather_S4096x1x64_S2048x1_S2048x1x64_12_0_n_n_0_1_1164_wf : GatherDims.WF S4096x1x64 S2048x1 S2048x1x64 [1, 2] [0] [] [0] [] 1 ![1, 1, 64]
  gather_S4096x64x64_S2048x1_S2048x64x64_12_0_n_n_0_1_16464_wf : GatherDims.WF S4096x64x64 S2048x1 S2048x64x64 [1, 2] [0] [] [0] [] 1 ![1, 64, 64]
  dot_S2048x1024x64_S2048x64x64_S2048x1024x64_2_1_1_2_0_0_wf : DotDims.WF S2048x1024x64 S2048x64x64 S2048x1024x64 [2] [1] [1] [2] [0] [0]
  gather_S4096x64x3_S2048x1_S2048x64x3_12_0_n_n_0_1_1643_wf : GatherDims.WF S4096x64x3 S2048x1 S2048x64x3 [1, 2] [0] [] [0] [] 1 ![1, 64, 3]
  dot_S2048x1024x64_S2048x64x3_S2048x1024x3_2_1_1_2_0_0_wf : DotDims.WF S2048x1024x64 S2048x64x3 S2048x1024x3 [2] [1] [1] [2] [0] [0]
  gather_S4096x1x3_S2048x1_S2048x1x3_12_0_n_n_0_1_113_wf : GatherDims.WF S4096x1x3 S2048x1 S2048x1x3 [1, 2] [0] [] [0] [] 1 ![1, 1, 3]

variable [Facts₀]

def gather_S4096x1024x3_S2048x1_S2048x1024x3_12_0_n_n_0_1_110243 : GatherDims S4096x1024x3 S2048x1 S2048x1024x3 where
  offsetDims := [1, 2]
  collapsedSliceDims := [0]
  operandBatchingDims := []
  startIndicesBatchingDims := []
  startIndexMap := [0]
  indexVectorDim := 1
  sliceSizes := ![1, 1024, 3]
  wf := gather_S4096x1024x3_S2048x1_S2048x1024x3_12_0_n_n_0_1_110243_wf
def gather_S4096x3x64_S2048x1_S2048x3x64_12_0_n_n_0_1_1364 : GatherDims S4096x3x64 S2048x1 S2048x3x64 where
  offsetDims := [1, 2]
  collapsedSliceDims := [0]
  operandBatchingDims := []
  startIndicesBatchingDims := []
  startIndexMap := [0]
  indexVectorDim := 1
  sliceSizes := ![1, 3, 64]
  wf := gather_S4096x3x64_S2048x1_S2048x3x64_12_0_n_n_0_1_1364_wf
def dot_S2048x1024x3_S2048x3x64_S2048x1024x64_2_1_1_2_0_0 : DotDims S2048x1024x3 S2048x3x64 S2048x1024x64 where
  lhsContracting := [2]
  rhsContracting := [1]
  lhsNonContracting := [1]
  rhsNonContracting := [2]
  lhsBatch := [0]
  rhsBatch := [0]
  wf := dot_S2048x1024x3_S2048x3x64_S2048x1024x64_2_1_1_2_0_0_wf
def gather_S4096x1x64_S2048x1_S2048x1x64_12_0_n_n_0_1_1164 : GatherDims S4096x1x64 S2048x1 S2048x1x64 where
  offsetDims := [1, 2]
  collapsedSliceDims := [0]
  operandBatchingDims := []
  startIndicesBatchingDims := []
  startIndexMap := [0]
  indexVectorDim := 1
  sliceSizes := ![1, 1, 64]
  wf := gather_S4096x1x64_S2048x1_S2048x1x64_12_0_n_n_0_1_1164_wf
def gather_S4096x64x64_S2048x1_S2048x64x64_12_0_n_n_0_1_16464 : GatherDims S4096x64x64 S2048x1 S2048x64x64 where
  offsetDims := [1, 2]
  collapsedSliceDims := [0]
  operandBatchingDims := []
  startIndicesBatchingDims := []
  startIndexMap := [0]
  indexVectorDim := 1
  sliceSizes := ![1, 64, 64]
  wf := gather_S4096x64x64_S2048x1_S2048x64x64_12_0_n_n_0_1_16464_wf
def dot_S2048x1024x64_S2048x64x64_S2048x1024x64_2_1_1_2_0_0 : DotDims S2048x1024x64 S2048x64x64 S2048x1024x64 where
  lhsContracting := [2]
  rhsContracting := [1]
  lhsNonContracting := [1]
  rhsNonContracting := [2]
  lhsBatch := [0]
  rhsBatch := [0]
  wf := dot_S2048x1024x64_S2048x64x64_S2048x1024x64_2_1_1_2_0_0_wf
def gather_S4096x64x3_S2048x1_S2048x64x3_12_0_n_n_0_1_1643 : GatherDims S4096x64x3 S2048x1 S2048x64x3 where
  offsetDims := [1, 2]
  collapsedSliceDims := [0]
  operandBatchingDims := []
  startIndicesBatchingDims := []
  startIndexMap := [0]
  indexVectorDim := 1
  sliceSizes := ![1, 64, 3]
  wf := gather_S4096x64x3_S2048x1_S2048x64x3_12_0_n_n_0_1_1643_wf
def dot_S2048x1024x64_S2048x64x3_S2048x1024x3_2_1_1_2_0_0 : DotDims S2048x1024x64 S2048x64x3 S2048x1024x3 where
  lhsContracting := [2]
  rhsContracting := [1]
  lhsNonContracting := [1]
  rhsNonContracting := [2]
  lhsBatch := [0]
  rhsBatch := [0]
  wf := dot_S2048x1024x64_S2048x64x3_S2048x1024x3_2_1_1_2_0_0_wf
def gather_S4096x1x3_S2048x1_S2048x1x3_12_0_n_n_0_1_113 : GatherDims S4096x1x3 S2048x1 S2048x1x3 where
  offsetDims := [1, 2]
  collapsedSliceDims := [0]
  operandBatchingDims := []
  startIndicesBatchingDims := []
  startIndexMap := [0]
  indexVectorDim := 1
  sliceSizes := ![1, 1, 3]
  wf := gather_S4096x1x3_S2048x1_S2048x1x3_12_0_n_n_0_1_113_wf

class Facts : Prop extends Facts₀ where

variable [Facts]
-- ==== Proof.Siren.lean ====
/-
  The network both programs compute, as one function over the extended reals.

  A row `r` (one block of the table) carries an input `x r : [T, 3]`, three hidden layers of width 64 and an output layer
  of width 3. A layer maps `h : [T, K]` to `h · W r + b r : [T, M]`; between layers the activation is `v ↦ sin (30 · v)`.
  Everything is stated over an abstract type of rows, so that a block of sixteen gathered rows and the whole gathered
  table are the same function composed with the map that names the rows.
-/
import Idealize.ShloMosaic.PureOps.Ideal
import Idealize.ShloMosaic.Lib.ValueIdx

noncomputable section

namespace Cert.Siren

open Idealize.ShloMosaic Idealize.ShloMosaic.ValueIdx

/-- The activation between layers: the sine of thirty times its argument (the factor as the f32 word both programs carry). -/
def act (v : EReal) : EReal := Ideal.sin (Ideal.ofBits .f32 0x41F00000#32 * v)

/-- One linear layer at row `r`, position `t`, output channel `m`: the sum over the input channels of the activation times
    the weight, plus the bias. -/
def lin {ρ : Type} {T K M : Nat} (x : ρ → Fin T → Fin K → EReal) (W : ρ → Fin K → Fin M → EReal) (b : ρ → Fin M → EReal)
    (r : ρ) (t : Fin T) (m : Fin M) : EReal :=
  (∑ k : Fin K, x r t k * W r k m) + b r m

/-- The four layers composed. -/
def net {ρ : Type} {T : Nat} (X : ρ → Fin T → Fin 3 → EReal)
    (W0 : ρ → Fin 3 → Fin 64 → EReal) (b0 : ρ → Fin 64 → EReal)
    (W1 : ρ → Fin 64 → Fin 64 → EReal) (b1 : ρ → Fin 64 → EReal)
    (W2 : ρ → Fin 64 → Fin 64 → EReal) (b2 : ρ → Fin 64 → EReal)
    (W3 : ρ → Fin 64 → Fin 3 → EReal) (b3 : ρ → Fin 3 → EReal) : ρ → Fin T → Fin 3 → EReal :=
  lin (fun r t k => act (lin (fun r t k => act (lin (fun r t k => act (lin X W0 b0 r t k)) W1 b1 r t k)) W2 b2 r t k)) W3 b3

/-- The network of re-named rows is the network at the named row. -/
theorem net_comp {ρ σ : Type} {T : Nat} (φ : σ → ρ) (X : ρ → Fin T → Fin 3 → EReal)
    (W0 : ρ → Fin 3 → Fin 64 → EReal) (b0 : ρ → Fin 64 → EReal)
    (W1 : ρ → Fin 64 → Fin 64 → EReal) (b1 : ρ → Fin 64 → EReal)
    (W2 : ρ → Fin 64 → Fin 64 → EReal) (b2 : ρ → Fin 64 → EReal)
    (W3 : ρ → Fin 64 → Fin 3 → EReal) (b3 : ρ → Fin 3 → EReal) (s : σ) (t : Fin T) (o : Fin 3) :
    net (fun s => X (φ s)) (fun s => W0 (φ s)) (fun s => b0 (φ s)) (fun s => W1 (φ s)) (fun s => b1 (φ s))
      (fun s => W2 (φ s)) (fun s => b2 (φ s)) (fun s => W3 (φ s)) (fun s => b3 (φ s)) s t o
    = net X W0 b0 W1 b1 W2 b2 W3 b3 (φ s) t o := rfl

/-! ## The arrays as rows -/

/-- Every index word names a row of the 4096-row tables. -/
def InRange (idx : IVec ⟨1, ![2048]⟩ 32) : Prop := ∀ j : (⟨1, ![2048]⟩ : Shape).Idx, 0 ≤ (idx j).toInt ∧ (idx j).toInt < 4096

/-- The row the `j`-th index word names: the word read as a signed integer, kept inside the table. -/
def rowOf (idx : IVec ⟨1, ![2048]⟩ 32) (j : Fin 2048) : Fin 4096 :=
  ⟨min (idx (ix1 j)).toInt.toNat (4096 - 1), by omega⟩

/-- A rank-3 table read by row. -/
def rows3 {A B : Nat} (x : (⟨3, ![4096, A, B]⟩ : Shape).Idx → EReal) (r : Fin 4096) (a : Fin A) (b : Fin B) : EReal :=
  x (ix3 r a b)

/-- A bias table `[4096, 1, M]` read by row. -/
def rowsB {M : Nat} (x : (⟨3, ![4096, 1, M]⟩ : Shape).Idx → EReal) (r : Fin 4096) (m : Fin M) : EReal :=
  x (ix3 r (0 : Fin 1) m)

/-- THE RESULT: element `(j, t, o)` is the network of row `rowOf idx j` at position `t`, output channel `o`. -/
def G (inp : (⟨3, ![4096, 1024, 3]⟩ : Shape).Idx → EReal) (idx : IVec ⟨1, ![2048]⟩ 32)
    (W0 : (⟨3, ![4096, 3, 64]⟩ : Shape).Idx → EReal) (b0 : (⟨3, ![4096, 1, 64]⟩ : Shape).Idx → EReal)
    (W1 : (⟨3, ![4096, 64, 64]⟩ : Shape).Idx → EReal) (b1 : (⟨3, ![4096, 1, 64]⟩ : Shape).Idx → EReal)
    (W2 : (⟨3, ![4096, 64, 64]⟩ : Shape).Idx → EReal) (b2 : (⟨3, ![4096, 1, 64]⟩ : Shape).Idx → EReal)
    (W3 : (⟨3, ![4096, 64, 3]⟩ : Shape).Idx → EReal) (b3 : (⟨3, ![4096, 1, 3]⟩ : Shape).Idx → EReal) :
    (⟨3, ![2048, 1024, 3]⟩ : Shape).Idx → EReal :=
  fun i => net (rows3 inp) (rows3 W0) (rowsB b0) (rows3 W1) (rowsB b1) (rows3 W2) (rowsB b2) (rows3 W3) (rowsB b3)
    (rowOf idx ⟨(i 0).val, (i 0).isLt⟩) ⟨(i 1).val, (i 1).isLt⟩ ⟨(i 2).val, (i 2).isLt⟩

end Cert.Siren

end
-- ==== Proof.IndexRange.lean ====
/-
  What the precondition says of the index vector, and what the two programs' index arithmetic does to a word in range.

  The precondition's last conjunct is "every index word, read signed, lies in [0, 4096)". For such a word the
  reference's wrap of negative words (add 4096 where the word is negative) and the kernel's clip into [0, 4095] both
  leave the word as it is.
-/
import proofs.«419069_j66520453480874_3_alg».proof.Pre_finite_inputs
import proofs.«419069_j66520453480874_3_alg».proof.Proof.Siren
import Idealize.ShloMosaic.Lib.ReduceAll
import Idealize.ShloMosaic.Lib.StableHlo.Predicate

noncomputable section

namespace Cert.Siren

open Idealize.ShloMosaic Idealize.ShloMosaic.ValueIdx

/-- The printed precondition, all ones, puts every index word in range (at any float instance). -/
theorem inRange_of_pre {F : FTy → Type} [FloatOps F] [hP : Cert.Pre_finite_inputs.Facts]
    (a0 : FVec F Cert.Pre_finite_inputs.S4096x1024x3 .f32) (a1 : IVec Cert.Pre_finite_inputs.S2048 32)
    (a2 : FVec F Cert.Pre_finite_inputs.S4096x3x64 .f32) (a3 : FVec F Cert.Pre_finite_inputs.S4096x1x64 .f32)
    (a4 : FVec F Cert.Pre_finite_inputs.S4096x64x64 .f32) (a5 : FVec F Cert.Pre_finite_inputs.S4096x1x64 .f32)
    (a6 : FVec F Cert.Pre_finite_inputs.S4096x64x64 .f32) (a7 : FVec F Cert.Pre_finite_inputs.S4096x1x64 .f32)
    (a8 : FVec F Cert.Pre_finite_inputs.S4096x64x3 .f32) (a9 : FVec F Cert.Pre_finite_inputs.S4096x1x3 .f32)
    (h : Cert.Pre_finite_inputs.fn (F := F) a0 a1 a2 a3 a4 a5 a6 a7 a8 a9 = fun _ => 1#1) :
    InRange a1 := by
  -- the printed function at its one index, its operations in view
  have h0 := congrFun h ix0
  dsimp only [Cert.Pre_finite_inputs.fn, Cert.Pre_finite_inputs.fn_part1, Cert.Pre_finite_inputs.fn_part2] at h0
  -- the last conjunct: the "and" over the whole index vector of "0 ≤ word" and "word < 4096"
  have hall := (IntOp.andi_eq_one.1 h0).2
  haveI : Subsingleton Cert.Pre_finite_inputs.S_.Idx := ⟨fun p q => funext fun d => d.elim0⟩
  intro j
  have hj := Host.reduce_andi_all _ _ _ _ _ hall j
  obtain ⟨hge, hlt⟩ := IntOp.andi_eq_one.1 hj
  -- each compare is of the word against a scalar read everywhere
  have hge' : IntOp.cmpi .sge (a1 j) (0#32 : BitVec 32) = 1#1 := hge
  have hlt' : IntOp.cmpi .slt (a1 j) (4096#32 : BitVec 32) = 1#1 := hlt
  have e1 := IntOp.cmpi_sge.1 hge'
  have e2 := IntOp.cmpi_slt.1 hlt'
  have z0 : (0#32 : BitVec 32).toInt = 0 := by decide
  have z1 : (4096#32 : BitVec 32).toInt = 4096 := by decide
  rw [z0] at e1
  rw [z1] at e2
  exact ⟨e1, e2⟩

/-- A word in range is not negative, so the wrap of negative words selects the word itself. -/
theorem wrap_eq (w : BitVec 32) (h : 0 ≤ w.toInt ∧ w.toInt < 4096) :
    Scalar.select (IntOp.cmpi .slt w 0#32) (IntOp.addi w 4096#32) w = w := by
  obtain ⟨h1, h2⟩ := h
  have z0 : (0#32 : BitVec 32).toInt = 0 := by decide
  -- the word is not below 0: the condition's bit is 0
  have hc : IntOp.cmpi .slt w 0#32 = 0#1 := eq_zero_of_ne_one (fun hh => by
    have hlt := IntOp.cmpi_slt.1 hh
    rw [z0] at hlt
    omega)
  rw [hc]
  exact select_zero _ _

/-- A word in range is its own clip into [0, 4095]: the larger of it and 0, then the smaller of that and 4095. -/
theorem clip_eq (w : BitVec 32) (h : 0 ≤ w.toInt ∧ w.toInt < 4096) :
    IntOp.minsi 4095#32 (IntOp.maxsi 0#32 w) = w := by
  obtain ⟨h1, h2⟩ := h
  have z0 : (0#32 : BitVec 32).toInt = 0 := by decide
  have z1 : (4095#32 : BitVec 32).toInt = 4095 := by decide
  -- the larger of 0 and the word is the word: the word is not below 0
  have hs : w.slt 0#32 = false := Bool.eq_false_iff.2 (fun hh => by
    have hlt := BitVec.slt_iff_toInt_lt.1 hh
    rw [z0] at hlt
    omega)
  have hmax : IntOp.maxsi 0#32 w = w := by
    show (if w.slt 0#32 then 0#32 else w) = w
    rw [hs]; rfl
  rw [hmax]
  -- the smaller of 4095 and the word is the word: 4095 is not below it
  have ht : (4095#32 : BitVec 32).slt w = false := Bool.eq_false_iff.2 (fun hh => by
    have hlt := BitVec.slt_iff_toInt_lt.1 hh
    rw [z1] at hlt
    omega)
  show (if (4095#32 : BitVec 32).slt w then 4095#32 else w) = w
  rw [ht]; rfl

end Cert.Siren

end
-- ==== Proof.LibGatherRows.lean ====
/-
  A table of rows gathered by a vector of row numbers, read at one element.

  `x[idx]` of a rank-3 table `x : [N, A, B]` at an integer vector `idx : [R]` (handed to the gather as `[R, 1]`) is the
  gather with offset axes `[1, 2]`, the table's axis 0 collapsed, the start index naming axis 0, the index vector along
  axis 1 of the start indices, and slices `[1, A, B]`. Result element `(j, a, b)` is the table's element `(r, a, b)`, `r` the
  `j`-th index word read as a signed integer and kept inside `[0, N − 1]`.
-/
import Idealize.ShloMosaic.PureOps.ShapeOps
import Idealize.ShloMosaic.Lib.ValueIdx

noncomputable section

namespace Cert.Lib

open Idealize.ShloMosaic Idealize.ShloMosaic.ValueIdx

variable {α : Type}

/-- The dimension numbers of a row gather, for a table `[N, A, B]`, start indices `[R, 1]` and a result `[R, A, B]`; their
    conditions `wf` are decided on a program's literal shapes. -/
abbrev rowDims (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- THE ROW GATHER READ AT `(j, a, b)`: the table at row `idx[j, 0]` (read signed, kept inside `[0, N − 1]`), same `a`, `b`. -/
theorem gather_rows_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (j : Fin R) (a : Fin A) (b : Fin B) :
    Host.gather (rowDims N A B R wf) x idx (ix3 j a b)
      = x (ix3 (⟨min (idx (ix2 j (0 : Fin 1))).toInt.toNat (N - 1), by omega⟩ : Fin N) a b) := by
  -- an operand axis other than axis 0 is not in the one-element list [0] (the start index map, the collapsed axes) …
  have hnot : ∀ c : Fin 3, c.val ≠ 0 → c ∉ ([0] : List (Fin 3)) :=
    fun c hc h => hc (congrArg Fin.val (List.mem_singleton.mp h))
  -- … so its slice starts at 0, and it is one of the kept axes the result's offset axes read
  have hstart : ∀ c : Fin 3, c.val ≠ 0 → (rowDims N A B R wf).start (ix3 j a b) idx c = 0 := fun c hc => by
    unfold GatherDims.start
    rw [dif_neg (hnot c hc)]
  have hkept : ∀ c : Fin 3, c.val ≠ 0 → c ∈ (rowDims N A B R wf).sKept := fun c hc =>
    (GatherDims.mem_sKept _ _).mpr ⟨hnot c hc, List.not_mem_nil⟩
  unfold Host.gather
  congr 1
  funext c
  refine Fin.ext ?_
  show (rowDims N A B R wf).start (ix3 j a b) idx c + (rowDims N A B R wf).batchCoord (ix3 j a b) c
      + (rowDims N A B R wf).offCoord (ix3 j a b) c = _
  -- no operand axis is a batching axis
  rw [GatherDims.batchCoord_eq_zero _ _ _ List.not_mem_nil]
  match c with
  | ⟨0, h0⟩ =>
    -- axis 0 is collapsed: no offset; it is the one axis the start index names: the clamped start
    rw [GatherDims.offCoord_eq_zero _ _ _
      (fun h => ((GatherDims.mem_sKept _ _).mp h).1 (List.mem_singleton.mpr rfl))]
    simp only [Nat.add_zero]
    unfold GatherDims.start
    rw [dif_pos (show (⟨0, h0⟩ : Fin 3) ∈ (rowDims N A B R wf).startIndexMap from List.mem_singleton.mpr rfl)]
    have hsi : (rowDims N A B R wf).siIdx (ix3 j a b)
        ⟨List.idxOf (⟨0, h0⟩ : Fin 3) (rowDims N A B R wf).startIndexMap,
          List.idxOf_lt_length_iff.2 (List.mem_singleton.mpr rfl)⟩ = ix2 j (0 : Fin 1) := by
      funext e; refine Fin.ext ?_
      match e with
      | ⟨0, _⟩ => rfl
      | ⟨1, _⟩ => rfl
    rw [hsi]
    rfl
  | ⟨1, h1⟩ =>
    -- axis 1 is the first kept axis: its offset is the result's coordinate on offset axis 1
    have hoff : (rowDims N A B R wf).offCoord (ix3 j a b) ⟨1, h1⟩ = a.val := by
      unfold GatherDims.offCoord
      rw [dif_pos (hkept ⟨1, h1⟩ Nat.one_ne_zero)]
      rfl
    rw [hstart ⟨1, h1⟩ Nat.one_ne_zero, hoff]
    show 0 + 0 + a.val = a.val
    omega
  | ⟨2, h2⟩ =>
    -- axis 2 is the second kept axis: its offset is the result's coordinate on offset axis 2
    have hoff : (rowDims N A B R wf).offCoord (ix3 j a b) ⟨2, h2⟩ = b.val := by
      unfold GatherDims.offCoord
      rw [dif_pos (hkept ⟨2, h2⟩ (Nat.succ_ne_zero 1))]
      rfl
    rw [hstart ⟨2, h2⟩ (Nat.succ_ne_zero 1), hoff]
    show 0 + 0 + b.val = b.val
    omega

end Cert.Lib

end
-- ==== Proof.Reference.lean ====
/-
  The reference network read index by index: its result array is the network `G` of the argument arrays.

  The host program gathers the rows the index vector names (after wrapping negative words, which leaves a word in range
  alone), and runs the four layers on the gathered tables: a batched product over the input channels, the bias added,
  thirty times that, the sine. Read at one element `(j, t, o)`, stage by stage, that is the network of row `rowOf idx j`.
-/
import proofs.«419069_j66520453480874_3_alg».proof.Proof.Gen.ReferenceIdeal.Read
import proofs.«419069_j66520453480874_3_alg».proof.Proof.Siren
import proofs.«419069_j66520453480874_3_alg».proof.Proof.IndexRange
import proofs.«419069_j66520453480874_3_alg».proof.Proof.LibGatherRows

noncomputable section

namespace Cert.Siren.Reference

open Idealize.ShloMosaic Idealize.ShloMosaic.ValueIdx Cert.ReferenceIdeal Cert.ReferenceIdeal.Read Cert.Siren

section Stages

variable (x0 : (⟨S4096x1024x3, .f32⟩ : BufTy).Contents (Elt Ideal)) (x1 : (⟨S2048, .i32⟩ : BufTy).Contents (Elt Ideal))
  (x2 : (⟨S4096x3x64, .f32⟩ : BufTy).Contents (Elt Ideal)) (x3 : (⟨S4096x1x64, .f32⟩ : BufTy).Contents (Elt Ideal))
  (x4 : (⟨S4096x64x64, .f32⟩ : BufTy).Contents (Elt Ideal)) (x5 : (⟨S4096x1x64, .f32⟩ : BufTy).Contents (Elt Ideal))
  (x6 : (⟨S4096x64x64, .f32⟩ : BufTy).Contents (Elt Ideal)) (x7 : (⟨S4096x1x64, .f32⟩ : BufTy).Contents (Elt Ideal))
  (x8 : (⟨S4096x64x3, .f32⟩ : BufTy).Contents (Elt Ideal)) (x9 : (⟨S4096x1x3, .f32⟩ : BufTy).Contents (Elt Ideal))

/-! ## The index vector

Before each gather the program wraps the index vector: where a word is negative it adds 4096. A word in range is not
negative, so the wrapped vector is the vector. The nine copies of the wrap are one and the same function of the index
vector, each written over its own copies of the constants 0 and 4096. -/

/-- The wrapped index vector is the index vector, for words in range. -/
theorem wrap_v4 (hr : InRange x1) : val_main_v4 (F := Ideal) x1 = x1 := by
  funext i
  rw [val_main_v4_apply, val_main_v1_apply, val_main_v3_apply, val_main_v0_apply, val_main_v2_apply,
    val_main_c_apply, val_main_c_0_apply]
  exact wrap_eq (x1 i) (hr i)

/-- The wrapped vector as a column `[2048, 1]`, read at `(j, 0)`: the `j`-th index word. -/
theorem col_v5 (hr : InRange x1) (j : Fin 2048) :
    val_main_v5 (F := Ideal) x1 (ix2 j (0 : Fin 1)) = x1 (ix1 j) := by
  rw [val_main_v5_apply, wrap_v4 x1 hr]
  exact congrArg x1 (funext fun a => Fin.ext (by match a with | ⟨0, _⟩ => rfl))

/-! ## The gathers -/

/-- A table of 4096 rows gathered at the column of index words, read at `(j, a, b)`: the table at row
    `rowOf idx j`, same `a`, `b`. -/
theorem gather_at {A B : Nat}
    (wf : GatherDims.WF ⟨3, ![4096, A, B]⟩ ⟨2, ![2048, 1]⟩ ⟨3, ![2048, A, B]⟩ [1, 2] [0] [] [0] [] 1 ![1, A, B])
    (x : (⟨3, ![4096, A, B]⟩ : Shape).Idx → EReal) (idx : IVec ⟨1, ![2048]⟩ 32) (hr : InRange idx)
    (j : Fin 2048) (a : Fin A) (b : Fin B) :
    Host.gather (Cert.Lib.rowDims 4096 A B 2048 wf) x (val_main_v5 (F := Ideal) idx) (ix3 j a b)
      = x (ix3 (rowOf idx j) a b) := by
  refine (Cert.Lib.gather_rows_apply (N := 4096) (by omega) wf x (val_main_v5 (F := Ideal) idx) j a b).trans ?_
  refine congrArg (fun r : Fin 4096 => x (ix3 r a b)) (Fin.ext ?_)
  show min ((val_main_v5 (F := Ideal) idx) (ix2 j (0 : Fin 1))).toInt.toNat (4096 - 1)
    = min (idx (ix1 j)).toInt.toNat (4096 - 1)
  rw [col_v5 idx hr j]

/-- The gathered inputs: row `rowOf idx j` of the input table. -/
theorem v6_at (hr : InRange x1) (j : Fin 2048) (t : Fin 1024) (k : Fin 3) :
    val_main_v6 (F := Ideal) x0 x1 (ix3 j t k) = rows3 x0 (rowOf x1 j) t k := by
  unfold val_main_v6
  exact gather_at Facts₀.gather_S4096x1024x3_S2048x1_S2048x1024x3_12_0_n_n_0_1_110243_wf x0 x1 hr j t k

/-- The gathered first-layer weights. Its start indices are a second copy of the wrapped column, the same function. -/
theorem v13_at (hr : InRange x1) (j : Fin 2048) (k : Fin 3) (m : Fin 64) :
    val_main_v13 (F := Ideal) x1 x2 (ix3 j k m) = rows3 x2 (rowOf x1 j) k m := by
  unfold val_main_v13
  exact gather_at Facts₀.gather_S4096x3x64_S2048x1_S2048x3x64_12_0_n_n_0_1_1364_wf x2 x1 hr j k m

/-- The gathered first-layer bias. -/
theorem v21_at (hr : InRange x1) (j : Fin 2048) (m : Fin 64) :
    val_main_v21 (F := Ideal) x1 x3 (ix3 j (0 : Fin 1) m) = rowsB x3 (rowOf x1 j) m := by
  unfold val_main_v21
  exact gather_at Facts₀.gather_S4096x1x64_S2048x1_S2048x1x64_12_0_n_n_0_1_1164_wf x3 x1 hr j (0 : Fin 1) m

/-- The gathered second-layer weights. -/
theorem v33_at (hr : InRange x1) (j : Fin 2048) (k : Fin 64) (m : Fin 64) :
    val_main_v33 (F := Ideal) x1 x4 (ix3 j k m) = rows3 x4 (rowOf x1 j) k m := by
  unfold val_main_v33
  exact gather_at Facts₀.gather_S4096x64x64_S2048x1_S2048x64x64_12_0_n_n_0_1_16464_wf x4 x1 hr j k m

/-- The gathered second-layer bias. -/
theorem v41_at (hr : InRange x1) (j : Fin 2048) (m : Fin 64) :
    val_main_v41 (F := Ideal) x1 x5 (ix3 j (0 : Fin 1) m) = rowsB x5 (rowOf x1 j) m := by
  unfold val_main_v41
  exact gather_at Facts₀.gather_S4096x1x64_S2048x1_S2048x1x64_12_0_n_n_0_1_1164_wf x5 x1 hr j (0 : Fin 1) m

/-- The gathered third-layer weights. -/
theorem v53_at (hr : InRange x1) (j : Fin 2048) (k : Fin 64) (m : Fin 64) :
    val_main_v53 (F := Ideal) x1 x6 (ix3 j k m) = rows3 x6 (rowOf x1 j) k m := by
  unfold val_main_v53
  exact gather_at Facts₀.gather_S4096x64x64_S2048x1_S2048x64x64_12_0_n_n_0_1_16464_wf x6 x1 hr j k m

/-- The gathered third-layer bias. -/
theorem v61_at (hr : InRange x1) (j : Fin 2048) (m : Fin 64) :
    val_main_v61 (F := Ideal) x1 x7 (ix3 j (0 : Fin 1) m) = rowsB x7 (rowOf x1 j) m := by
  unfold val_main_v61
  exact gather_at Facts₀.gather_S4096x1x64_S2048x1_S2048x1x64_12_0_n_n_0_1_1164_wf x7 x1 hr j (0 : Fin 1) m

/-- The gathered output-layer weights. -/
theorem v73_at (hr : InRange x1) (j : Fin 2048) (k : Fin 64) (o : Fin 3) :
    val_main_v73 (F := Ideal) x1 x8 (ix3 j k o) = rows3 x8 (rowOf x1 j) k o := by
  unfold val_main_v73
  exact gather_at Facts₀.gather_S4096x64x3_S2048x1_S2048x64x3_12_0_n_n_0_1_1643_wf x8 x1 hr j k o

/-- The gathered output-layer bias. -/
theorem v81_at (hr : InRange x1) (j : Fin 2048) (o : Fin 3) :
    val_main_v81 (F := Ideal) x1 x9 (ix3 j (0 : Fin 1) o) = rowsB x9 (rowOf x1 j) o := by
  unfold val_main_v81
  exact gather_at Facts₀.gather_S4096x1x3_S2048x1_S2048x1x3_12_0_n_n_0_1_113_wf x9 x1 hr j (0 : Fin 1) o

/-! ## Where a product and a bias broadcast read their operands

The batched product at `(j, t, m)` reads its left operand at `(j, t, k)` and its right operand at `(j, k, m)`; the
bias `[2048, 1, M]` broadcast along the positions is read at `(j, 0, m)`. -/

theorem lidx_v14 (j : Fin 2048) (t : Fin 1024) (m : Fin 64) (k : Fin 3) :
    lidx_main_v14 (ix3 j t m) k = ix3 j t k :=
  funext fun a => Fin.ext (by match a with | ⟨0, _⟩ => rfl | ⟨1, _⟩ => rfl | ⟨2, _⟩ => rfl)

theorem ridx_v14 (j : Fin 2048) (t : Fin 1024) (m : Fin 64) (k : Fin 3) :
    ridx_main_v14 (ix3 j t m) k = ix3 j k m :=
  funext fun a => Fin.ext (by match a with | ⟨0, _⟩ => rfl | ⟨1, _⟩ => rfl | ⟨2, _⟩ => rfl)

theorem bias_idx_v22 (j : Fin 2048) (t : Fin 1024) (m : Fin 64) :
    idx_main_v22 (ix3 j t m) = ix3 j (0 : Fin 1) m :=
  funext fun a => Fin.ext (by match a with | ⟨0, _⟩ => rfl | ⟨1, _⟩ => rfl | ⟨2, _⟩ => rfl)

theorem lidx_v34 (j : Fin 2048) (t : Fin 1024) (m : Fin 64) (k : Fin 64) :
    lidx_main_v34 (ix3 j t m) k = ix3 j t k :=
  funext fun a => Fin.ext (by match a with | ⟨0, _⟩ => rfl | ⟨1, _⟩ => rfl | ⟨2, _⟩ => rfl)

theorem ridx_v34 (j : Fin 2048) (t : Fin 1024) (m : Fin 64) (k : Fin 64) :
    ridx_main_v34 (ix3 j t m) k = ix3 j k m :=
  funext fun a => Fin.ext (by match a with | ⟨0, _⟩ => rfl | ⟨1, _⟩ => rfl | ⟨2, _⟩ => rfl)

theorem bias_idx_v42 (j : Fin 2048) (t : Fin 1024) (m : Fin 64) :
    idx_main_v42 (ix3 j t m) = ix3 j (0 : Fin 1) m :=
  funext fun a => Fin.ext (by match a with | ⟨0, _⟩ => rfl | ⟨1, _⟩ => rfl | ⟨2, _⟩ => rfl)

theorem lidx_v54 (j : Fin 2048) (t : Fin 1024) (m : Fin 64) (k : Fin 64) :
    lidx_main_v54 (ix3 j t m) k = ix3 j t k :=
  funext fun a => Fin.ext (by match a with | ⟨0, _⟩ => rfl | ⟨1, _⟩ => rfl | ⟨2, _⟩ => rfl)

theorem ridx_v54 (j : Fin 2048) (t : Fin 1024) (m : Fin 64) (k : Fin 64) :
    ridx_main_v54 (ix3 j t m) k = ix3 j k m :=
  funext fun a => Fin.ext (by match a with | ⟨0, _⟩ => rfl | ⟨1, _⟩ => rfl | ⟨2, _⟩ => rfl)

theorem bias_idx_v62 (j : Fin 2048) (t : Fin 1024) (m : Fin 64) :
    idx_main_v62 (ix3 j t m) = ix3 j (0 : Fin 1) m :=
  funext fun a => Fin.ext (by match a with | ⟨0, _⟩ => rfl | ⟨1, _⟩ => rfl | ⟨2, _⟩ => rfl)

theorem lidx_v74 (j : Fin 2048) (t : Fin 1024) (o : Fin 3) (k : Fin 64) :
    lidx_main_v74 (ix3 j t o) k = ix3 j t k :=
  funext fun a => Fin.ext (by match a with | ⟨0, _⟩ => rfl | ⟨1, _⟩ => rfl | ⟨2, _⟩ => rfl)

theorem ridx_v74 (j : Fin 2048) (t : Fin 1024) (o : Fin 3) (k : Fin 64) :
    ridx_main_v74 (ix3 j t o) k = ix3 j k o :=
  funext fun a => Fin.ext (by match a with | ⟨0, _⟩ => rfl | ⟨1, _⟩ => rfl | ⟨2, _⟩ => rfl)

theorem bias_idx_v82 (j : Fin 2048) (t : Fin 1024) (o : Fin 3) :
    idx_main_v82 (ix3 j t o) = ix3 j (0 : Fin 1) o :=
  funext fun a => Fin.ext (by match a with | ⟨0, _⟩ => rfl | ⟨1, _⟩ => rfl | ⟨2, _⟩ => rfl)

/-! ## The layers -/

/-- Thirty times a value (the factor as its f32 word), then the sine, as the host's operations over the extended reals:
    the activation. -/
theorem host_act (v : EReal) :
    FloatOps.hostUnary (F := Ideal) (φ := .f32) .sin
      (FloatOps.mulf (F := Ideal) (φ := .f32) (FloatOps.ofBits (F := Ideal) .f32 0x41F00000#32) v) = act v := rfl

/-- First layer before the activation, at `(j, t, m)`: the linear layer of row `rowOf idx j` on the input table. -/
theorem pre1 (hr : InRange x1) (j : Fin 2048) (t : Fin 1024) (m : Fin 64) :
    val_main_v23 (F := Ideal) x0 x1 x2 x3 (ix3 j t m)
      = lin (rows3 x0) (rows3 x2) (rowsB x3) (rowOf x1 j) t m := by
  rw [val_main_v23_apply, val_main_v14_apply, val_main_v22_apply, bias_idx_v22, v21_at x1 x3 hr, Ideal.addf_def]
  unfold lin
  refine congrArg (fun s : EReal => s + rowsB x3 (rowOf x1 j) m) ?_
  refine Finset.sum_congr rfl fun k _ => ?_
  rw [lidx_v14, ridx_v14, v6_at x0 x1 hr, v13_at x1 x2 hr]

/-- First layer after the activation. -/
theorem act1 (hr : InRange x1) (j : Fin 2048) (t : Fin 1024) (m : Fin 64) :
    val_main_v26 (F := Ideal) x0 x1 x2 x3 (ix3 j t m)
      = act (lin (rows3 x0) (rows3 x2) (rowsB x3) (rowOf x1 j) t m) := by
  rw [val_main_v26_apply, val_main_v25_apply, val_main_v24_apply, val_main_cst_apply, pre1 x0 x1 x2 x3 hr j t m]
  exact host_act _

/-- Second layer before the activation, given that the first layer's output at `(j, t, k)` is `h1` of the row. -/
theorem pre2 (hr : InRange x1) (h1 : Fin 4096 → Fin 1024 → Fin 64 → EReal)
    (hprev : ∀ (j : Fin 2048) (t : Fin 1024) (k : Fin 64),
      val_main_v26 (F := Ideal) x0 x1 x2 x3 (ix3 j t k) = h1 (rowOf x1 j) t k)
    (j : Fin 2048) (t : Fin 1024) (m : Fin 64) :
    val_main_v43 (F := Ideal) x0 x1 x2 x3 x4 x5 (ix3 j t m)
      = lin h1 (rows3 x4) (rowsB x5) (rowOf x1 j) t m := by
  rw [val_main_v43_apply, val_main_v34_apply, val_main_v42_apply, bias_idx_v42, v41_at x1 x5 hr, Ideal.addf_def]
  unfold lin
  refine congrArg (fun s : EReal => s + rowsB x5 (rowOf x1 j) m) ?_
  refine Finset.sum_congr rfl fun k _ => ?_
  rw [lidx_v34, ridx_v34, hprev, v33_at x1 x4 hr]

/-- Second layer after the activation. -/
theorem act2 (hr : InRange x1) (h1 : Fin 4096 → Fin 1024 → Fin 64 → EReal)
    (hprev : ∀ (j : Fin 2048) (t : Fin 1024) (k : Fin 64),
      val_main_v26 (F := Ideal) x0 x1 x2 x3 (ix3 j t k) = h1 (rowOf x1 j) t k)
    (j : Fin 2048) (t : Fin 1024) (m : Fin 64) :
    val_main_v46 (F := Ideal) x0 x1 x2 x3 x4 x5 (ix3 j t m)
      = act (lin h1 (rows3 x4) (rowsB x5) (rowOf x1 j) t m) := by
  rw [val_main_v46_apply, val_main_v45_apply, val_main_v44_apply, val_main_cst_9_apply,
    pre2 x0 x1 x2 x3 x4 x5 hr h1 hprev j t m]
  exact host_act _

/-- Third layer before the activation, given the second layer's output. -/
theorem pre3 (hr : InRange x1) (h2 : Fin 4096 → Fin 1024 → Fin 64 → EReal)
    (hprev : ∀ (j : Fin 2048) (t : Fin 1024) (k : Fin 64),
      val_main_v46 (F := Ideal) x0 x1 x2 x3 x4 x5 (ix3 j t k) = h2 (rowOf x1 j) t k)
    (j : Fin 2048) (t : Fin 1024) (m : Fin 64) :
    val_main_v63 (F := Ideal) x0 x1 x2 x3 x4 x5 x6 x7 (ix3 j t m)
      = lin h2 (rows3 x6) (rowsB x7) (rowOf x1 j) t m := by
  rw [val_main_v63_apply, val_main_v54_apply, val_main_v62_apply, bias_idx_v62, v61_at x1 x7 hr, Ideal.addf_def]
  unfold lin
  refine congrArg (fun s : EReal => s + rowsB x7 (rowOf x1 j) m) ?_
  refine Finset.sum_congr rfl fun k _ => ?_
  rw [lidx_v54, ridx_v54, hprev, v53_at x1 x6 hr]

/-- Third layer after the activation. -/
theorem act3 (hr : InRange x1) (h2 : Fin 4096 → Fin 1024 → Fin 64 → EReal)
    (hprev : ∀ (j : Fin 2048) (t : Fin 1024) (k : Fin 64),
      val_main_v46 (F := Ideal) x0 x1 x2 x3 x4 x5 (ix3 j t k) = h2 (rowOf x1 j) t k)
    (j : Fin 2048) (t : Fin 1024) (m : Fin 64) :
    val_main_v66 (F := Ideal) x0 x1 x2 x3 x4 x5 x6 x7 (ix3 j t m)
      = act (lin h2 (rows3 x6) (rowsB x7) (rowOf x1 j) t m) := by
  rw [val_main_v66_apply, val_main_v65_apply, val_main_v64_apply, val_main_cst_14_apply,
    pre3 x0 x1 x2 x3 x4 x5 x6 x7 hr h2 hprev j t m]
  exact host_act _

/-- The output layer (no activation), given the third layer's output. -/
theorem out4 (hr : InRange x1) (h3 : Fin 4096 → Fin 1024 → Fin 64 → EReal)
    (hprev : ∀ (j : Fin 2048) (t : Fin 1024) (k : Fin 64),
      val_main_v66 (F := Ideal) x0 x1 x2 x3 x4 x5 x6 x7 (ix3 j t k) = h3 (rowOf x1 j) t k)
    (j : Fin 2048) (t : Fin 1024) (o : Fin 3) :
    val_main_v83 (F := Ideal) x0 x1 x2 x3 x4 x5 x6 x7 x8 x9 (ix3 j t o)
      = lin h3 (rows3 x8) (rowsB x9) (rowOf x1 j) t o := by
  rw [val_main_v83_apply, val_main_v74_apply, val_main_v82_apply, bias_idx_v82, v81_at x1 x9 hr, Ideal.addf_def]
  unfold lin
  refine congrArg (fun s : EReal => s + rowsB x9 (rowOf x1 j) o) ?_
  refine Finset.sum_congr rfl fun k _ => ?_
  rw [lidx_v74, ridx_v74, hprev, v73_at x1 x8 hr]

end Stages

/-- The reference's result, as a function of the ten argument arrays, is the network: for index words in range. -/
theorem result_eq
    (x0 : (⟨S4096x1024x3, .f32⟩ : BufTy).Contents (Elt Ideal)) (x1 : (⟨S2048, .i32⟩ : BufTy).Contents (Elt Ideal))
    (x2 : (⟨S4096x3x64, .f32⟩ : BufTy).Contents (Elt Ideal)) (x3 : (⟨S4096x1x64, .f32⟩ : BufTy).Contents (Elt Ideal))
    (x4 : (⟨S4096x64x64, .f32⟩ : BufTy).Contents (Elt Ideal)) (x5 : (⟨S4096x1x64, .f32⟩ : BufTy).Contents (Elt Ideal))
    (x6 : (⟨S4096x64x64, .f32⟩ : BufTy).Contents (Elt Ideal)) (x7 : (⟨S4096x1x64, .f32⟩ : BufTy).Contents (Elt Ideal))
    (x8 : (⟨S4096x64x3, .f32⟩ : BufTy).Contents (Elt Ideal)) (x9 : (⟨S4096x1x3, .f32⟩ : BufTy).Contents (Elt Ideal))
    (hr : InRange x1) :
    val_main_v83 (F := Ideal) x0 x1 x2 x3 x4 x5 x6 x7 x8 x9 = G x0 x1 x2 x3 x4 x5 x6 x7 x8 x9 := by
  funext i
  obtain ⟨j, t, o, rfl⟩ : ∃ (j : Fin 2048) (t : Fin 1024) (o : Fin 3), i = ix3 j t o := ⟨i 0, i 1, i 2, eq_ix3 i⟩
  have e1 := act1 x0 x1 x2 x3 hr
  have e2 := act2 x0 x1 x2 x3 x4 x5 hr
    (fun r t k => act (lin (rows3 x0) (rows3 x2) (rowsB x3) r t k)) e1
  have e3 := act3 x0 x1 x2 x3 x4 x5 x6 x7 hr
    (fun r t k => act (lin (fun r t k => act (lin (rows3 x0) (rows3 x2) (rowsB x3) r t k))
      (rows3 x4) (rowsB x5) r t k)) e2
  exact out4 x0 x1 x2 x3 x4 x5 x6 x7 x8 x9 hr
    (fun r t k => act (lin (fun r t k => act (lin (fun r t k => act (lin (rows3 x0) (rows3 x2) (rowsB x3) r t k))
      (rows3 x4) (rowsB x5) r t k)) (rows3 x6) (rowsB x7) r t k)) e3 j t o

end Cert.Siren.Reference

end
-- ==== Proof.Staged.lean ====
/-
  What each window's array holds when the region is entered, read at one element.

  Before the call the host program clips the index words into [0, 4095] (which leaves a word in range alone), wraps
  negative words (the same), transposes each table's last two axes, changes the float format of the input and the
  weights (the identity on extended reals), gathers the rows the index vector names, and replicates each bias column
  along 128 lanes. So each staged array, at `(j, a, b)`, is the argument table at row `rowOf idx j` with the last two
  coordinates exchanged; a staged bias at `(j, c, l)` is the bias table at `(rowOf idx j, 0, c)` whatever the lane `l`.
-/
import proofs.«419069_j66520453480874_3_alg».proof.Proof.Gen.KernelIdeal.Frame
import proofs.«419069_j66520453480874_3_alg».proof.Proof.Siren
import proofs.«419069_j66520453480874_3_alg».proof.Proof.IndexRange
import proofs.«419069_j66520453480874_3_alg».proof.Proof.LibGatherRows
import Idealize.ShloMosaic.Lib.StableHlo.Run
import Idealize.ShloMosaic.Lib.ValueIdx
import Idealize.ShloMosaic.Lib.Pipeline.Value

-- the host operations before the region are one list of 107 operations: a term over it nests past the default depth
set_option maxRecDepth 16384
set_option maxHeartbeats 40000000

noncomputable section

namespace Cert.Siren.Staged

open Idealize.ShloMosaic Idealize.ShloMosaic.ValueIdx Idealize.ShloMosaic.StableHlo Idealize.ShloMosaic.TcCoe Idealize.SL.Sem
open Cert.KernelIdeal Cert.KernelIdeal.Gen Cert.Siren

/-! ## The index vector the gathers read

Before every gather the program clips the index words into [0, 4095] and then adds 4096 to the negative ones. On words
already in [0, 4096) both steps change nothing, so the vector the gathers read is the index vector itself. -/

/-- The index words clipped into [0, 4095]: the larger of the word and 0, then the smaller of that and 4095. -/
def clipped (idx : IVec S2048 32) : IVec S2048 32 :=
  minsi (broadcastInDim S2048 ![] bcast_S_S2048 (constantI S_ 32 4095#32))
    (maxsi (broadcastInDim S2048 ![] bcast_S_S2048 (constantI S_ 32 0#32)) idx)

/-- The clipped words, 4096 added to the negative ones. -/
def wrapped (idx : IVec S2048 32) : IVec S2048 32 :=
  select (cmpi .slt (clipped idx) (broadcastInDim S2048 ![] bcast_S_S2048 (constantI S_ 32 0#32)))
    (addi (clipped idx) (broadcastInDim S2048 ![] bcast_S_S2048 (constantI S_ 32 4096#32))) (clipped idx)

/-- On index words in range the clip and the wrap are the identity. -/
theorem wrapped_eq (idx : IVec S2048 32) (h : InRange idx) : wrapped idx = idx := by
  funext j
  have hj : 0 ≤ (idx j).toInt ∧ (idx j).toInt < 4096 := h j
  have hc : clipped idx j = idx j := clip_eq (idx j) hj
  show Scalar.select (IntOp.cmpi .slt (clipped idx j) 0#32) (IntOp.addi (clipped idx j) 4096#32) (clipped idx j) = idx j
  rw [hc]
  exact wrap_eq (idx j) hj

/-- The start indices of a gather: the wrapped words as a column `[2048, 1]`. -/
def starts (idx : IVec S2048 32) : IVec S2048x1 32 :=
  broadcastInDim S2048x1 ![0] bcast_S2048_S2048x1_0 (wrapped idx)

/-- The column's `j`-th start index is the `j`-th index word. -/
theorem starts_apply (idx : IVec S2048 32) (h : InRange idx) (j : Fin 2048) :
    starts idx (ix2 j (0 : Fin 1)) = idx (ix1 j) := by
  unfold starts
  rw [wrapped_eq idx h]
  exact broadcastInDim_apply _ bcast_S2048_S2048x1_0 idx (ix2 j (0 : Fin 1)) (ix1 j) (fun a => match a with
    | ⟨0, _⟩ => by show j.val = if (2048 : Nat) = 1 then 0 else j.val; rw [if_neg (by decide)])

/-- The row a gather reads for result row `j`: the start index read signed and kept inside the table is `rowOf idx j`. -/
theorem row_eq (idx : IVec S2048 32) (h : InRange idx) (j : Fin 2048)
    (p : min (starts idx (ix2 j (0 : Fin 1))).toInt.toNat (4096 - 1) < 4096) :
    (⟨min (starts idx (ix2 j (0 : Fin 1))).toInt.toNat (4096 - 1), p⟩ : Fin 4096) = rowOf idx j := by
  apply Fin.ext
  show min (starts idx (ix2 j (0 : Fin 1))).toInt.toNat (4096 - 1) = min (idx (ix1 j)).toInt.toNat (4096 - 1)
  rw [starts_apply idx h j]

/-! ## The two shapes of staged array

A table `[4096, B, A]` (the input, a weight) is staged with its last two axes exchanged, its float format changed (the
identity on extended reals) and its rows gathered: `[2048, A, B]`. A bias table `[4096, 1, M]` is staged with its last
two axes exchanged, its rows gathered, and the one column `[2048, M, 1]` repeated along 128 lanes. -/

/-- A table's rows as staged: exchange the last two axes, change the format, gather the rows the index vector names. -/
def tableRows {A B : Nat} (hT : (⟨3, ![4096, B, A]⟩ : Shape).Transposes [0, 2, 1] ⟨3, ![4096, A, B]⟩)
    (wf : GatherDims.WF ⟨3, ![4096, A, B]⟩ ⟨2, ![2048, 1]⟩ ⟨3, ![2048, A, B]⟩ [1, 2] [0] [] [0] [] 1 ![1, A, B])
    (x : FVec Ideal ⟨3, ![4096, B, A]⟩ .f32) (idx : IVec S2048 32) : (⟨3, ![2048, A, B]⟩ : Shape).Idx → EReal :=
  Host.gather (Cert.Lib.rowDims 4096 A B 2048 wf)
    (truncf (F := Ideal) (φ := .f32) .bf16 (transpose ⟨3, ![4096, A, B]⟩ [0, 2, 1] x hT) bitsLt_bf16_f32) (starts idx)

/-- The staged table at `(j, a, b)` is the table at row `rowOf idx j`, the last two coordinates exchanged. -/
theorem tableRows_apply {A B : Nat} (hT : (⟨3, ![4096, B, A]⟩ : Shape).Transposes [0, 2, 1] ⟨3, ![4096, A, B]⟩)
    (wf : GatherDims.WF ⟨3, ![4096, A, B]⟩ ⟨2, ![2048, 1]⟩ ⟨3, ![2048, A, B]⟩ [1, 2] [0] [] [0] [] 1 ![1, A, B])
    (x : FVec Ideal ⟨3, ![4096, B, A]⟩ .f32) (idx : IVec S2048 32) (h : InRange idx)
    (j : Fin 2048) (a : Fin A) (b : Fin B) :
    tableRows hT wf x idx (ix3 j a b) = x (ix3 (rowOf idx j) b a) := by
  unfold tableRows
  rw [Cert.Lib.gather_rows_apply (by omega) wf _ (starts idx) j a b, row_eq idx h j]
  show transpose ⟨3, ![4096, A, B]⟩ [0, 2, 1] x hT (ix3 (rowOf idx j) a b) = x (ix3 (rowOf idx j) b a)
  exact transpose_apply _ x hT _ _ (fun d => match d with | ⟨0, _⟩ => rfl | ⟨1, _⟩ => rfl | ⟨2, _⟩ => rfl)

/-- A bias table's rows as staged: exchange the last two axes, gather the rows, repeat the column along 128 lanes. -/
def biasRows {M : Nat} (hT : (⟨3, ![4096, 1, M]⟩ : Shape).Transposes [0, 2, 1] ⟨3, ![4096, M, 1]⟩)
    (wf : GatherDims.WF ⟨3, ![4096, M, 1]⟩ ⟨2, ![2048, 1]⟩ ⟨3, ![2048, M, 1]⟩ [1, 2] [0] [] [0] [] 1 ![1, M, 1])
    (hB : (⟨3, ![2048, M, 1]⟩ : Shape).BroadcastsInDim ⟨3, ![2048, M, 128]⟩ ![0, 1, 2])
    (x : FVec Ideal ⟨3, ![4096, 1, M]⟩ .f32) (idx : IVec S2048 32) : (⟨3, ![2048, M, 128]⟩ : Shape).Idx → EReal :=
  broadcastInDim ⟨3, ![2048, M, 128]⟩ ![0, 1, 2] hB
    (Host.gather (Cert.Lib.rowDims 4096 M 1 2048 wf) (transpose ⟨3, ![4096, M, 1]⟩ [0, 2, 1] x hT) (starts idx))

/-- The staged bias at `(j, o, l)` is the bias table at `(rowOf idx j, 0, o)`, whatever the lane `l`. -/
theorem biasRows_apply {M : Nat} (hT : (⟨3, ![4096, 1, M]⟩ : Shape).Transposes [0, 2, 1] ⟨3, ![4096, M, 1]⟩)
    (wf : GatherDims.WF ⟨3, ![4096, M, 1]⟩ ⟨2, ![2048, 1]⟩ ⟨3, ![2048, M, 1]⟩ [1, 2] [0] [] [0] [] 1 ![1, M, 1])
    (hB : (⟨3, ![2048, M, 1]⟩ : Shape).BroadcastsInDim ⟨3, ![2048, M, 128]⟩ ![0, 1, 2])
    (x : FVec Ideal ⟨3, ![4096, 1, M]⟩ .f32) (idx : IVec S2048 32) (h : InRange idx)
    (j : Fin 2048) (o : Fin M) (l : Fin 128) :
    biasRows hT wf hB x idx (ix3 j o l) = x (ix3 (rowOf idx j) (0 : Fin 1) o) := by
  unfold biasRows
  refine (broadcastInDim_apply _ hB _ (ix3 j o l) (ix3 j o (0 : Fin 1)) (fun a => match a with
    | ⟨0, _⟩ => by show j.val = if (2048 : Nat) = 1 then 0 else j.val; rw [if_neg (by decide)]
    | ⟨1, _⟩ => by
        show o.val = if M = 1 then 0 else o.val
        have ho := o.isLt
        split <;> omega
    | ⟨2, _⟩ => by show (0 : Nat) = if (1 : Nat) = 1 then 0 else l.val; rw [if_pos rfl])).trans ?_
  rw [Cert.Lib.gather_rows_apply (by omega) wf _ (starts idx) j o (0 : Fin 1), row_eq idx h j]
  exact transpose_apply _ x hT _ _ (fun d => match d with | ⟨0, _⟩ => rfl | ⟨1, _⟩ => rfl | ⟨2, _⟩ => rfl)

/-! ## The nine windows' arrays -/

variable (m : (ℓ : Loc nD τ sig) → Buf (Elt Ideal) ℓ) (c : Dev nD)

/-- The argument arrays of core `c`, by name. -/
abbrev aInp : FVec Ideal S4096x1024x3 .f32 := m ((c : Thread nD τ).loc main_arg0)
abbrev aIdx : IVec S2048 32 := m ((c : Thread nD τ).loc main_arg1)
abbrev aW0 : FVec Ideal S4096x3x64 .f32 := m ((c : Thread nD τ).loc main_arg2)
abbrev aB0 : FVec Ideal S4096x1x64 .f32 := m ((c : Thread nD τ).loc main_arg3)
abbrev aW1 : FVec Ideal S4096x64x64 .f32 := m ((c : Thread nD τ).loc main_arg4)
abbrev aB1 : FVec Ideal S4096x1x64 .f32 := m ((c : Thread nD τ).loc main_arg5)
abbrev aW2 : FVec Ideal S4096x64x64 .f32 := m ((c : Thread nD τ).loc main_arg6)
abbrev aB2 : FVec Ideal S4096x1x64 .f32 := m ((c : Thread nD τ).loc main_arg7)
abbrev aW3 : FVec Ideal S4096x64x3 .f32 := m ((c : Thread nD τ).loc main_arg8)
abbrev aB3 : FVec Ideal S4096x1x3 .f32 := m ((c : Thread nD τ).loc main_arg9)

/-- Window 0's array: the input, channels first, row by row. -/
theorem staged_x (hr : InRange (aIdx m c)) (j : Fin 2048) (k : Fin 3) (n : Fin 1024) :
    (V m c main_v21 : S2048x3x1024.Idx → EReal) (ix3 j k n) = aInp m c (ix3 (rowOf (aIdx m c) j) n k) := by
  have e : (V m c main_v21 : S2048x3x1024.Idx → EReal)
      = tableRows transposes_S4096x1024x3_S4096x3x1024_0_2_1
          gather_S4096x3x1024_S2048x1_S2048x3x1024_12_0_n_n_0_1_131024_wf (aInp m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact tableRows_apply _ _ (aInp m c) (aIdx m c) hr j k n
/-- Window 1's array: the first layer's weight, transposed. -/
theorem staged_w0 (hr : InRange (aIdx m c)) (j : Fin 2048) (o : Fin 64) (k : Fin 3) :
    (V m c main_v28 : S2048x64x3.Idx → EReal) (ix3 j o k) = aW0 m c (ix3 (rowOf (aIdx m c) j) k o) := by
  have e : (V m c main_v28 : S2048x64x3.Idx → EReal)
      = tableRows transposes_S4096x3x64_S4096x64x3_0_2_1
          gather_S4096x64x3_S2048x1_S2048x64x3_12_0_n_n_0_1_1643_wf (aW0 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact tableRows_apply _ _ (aW0 m c) (aIdx m c) hr j o k
/-- Window 2's array: the first layer's bias, on every lane. -/
theorem staged_b0 (hr : InRange (aIdx m c)) (j : Fin 2048) (o : Fin 64) (l : Fin 128) :
    (V m c main_v57 : S2048x64x128.Idx → EReal) (ix3 j o l) = aB0 m c (ix3 (rowOf (aIdx m c) j) (0 : Fin 1) o) := by
  have e : (V m c main_v57 : S2048x64x128.Idx → EReal)
      = biasRows transposes_S4096x1x64_S4096x64x1_0_2_1 gather_S4096x64x1_S2048x1_S2048x64x1_12_0_n_n_0_1_1641_wf
          bcast_S2048x64x1_S2048x64x128_0_1_2 (aB0 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact biasRows_apply _ _ _ (aB0 m c) (aIdx m c) hr j o l
/-- Window 3's array: the second layer's weight, transposed. -/
theorem staged_w1 (hr : InRange (aIdx m c)) (j : Fin 2048) (o : Fin 64) (k : Fin 64) :
    (V m c main_v35 : S2048x64x64.Idx → EReal) (ix3 j o k) = aW1 m c (ix3 (rowOf (aIdx m c) j) k o) := by
  have e : (V m c main_v35 : S2048x64x64.Idx → EReal)
      = tableRows transposes_S4096x64x64_S4096x64x64_0_2_1
          gather_S4096x64x64_S2048x1_S2048x64x64_12_0_n_n_0_1_16464_wf (aW1 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact tableRows_apply _ _ (aW1 m c) (aIdx m c) hr j o k
/-- Window 4's array: the second layer's bias, on every lane. -/
theorem staged_b1 (hr : InRange (aIdx m c)) (j : Fin 2048) (o : Fin 64) (l : Fin 128) :
    (V m c main_v65 : S2048x64x128.Idx → EReal) (ix3 j o l) = aB1 m c (ix3 (rowOf (aIdx m c) j) (0 : Fin 1) o) := by
  have e : (V m c main_v65 : S2048x64x128.Idx → EReal)
      = biasRows transposes_S4096x1x64_S4096x64x1_0_2_1 gather_S4096x64x1_S2048x1_S2048x64x1_12_0_n_n_0_1_1641_wf
          bcast_S2048x64x1_S2048x64x128_0_1_2 (aB1 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact biasRows_apply _ _ _ (aB1 m c) (aIdx m c) hr j o l
/-- Window 5's array: the third layer's weight, transposed. -/
theorem staged_w2 (hr : InRange (aIdx m c)) (j : Fin 2048) (o : Fin 64) (k : Fin 64) :
    (V m c main_v42 : S2048x64x64.Idx → EReal) (ix3 j o k) = aW2 m c (ix3 (rowOf (aIdx m c) j) k o) := by
  have e : (V m c main_v42 : S2048x64x64.Idx → EReal)
      = tableRows transposes_S4096x64x64_S4096x64x64_0_2_1
          gather_S4096x64x64_S2048x1_S2048x64x64_12_0_n_n_0_1_16464_wf (aW2 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact tableRows_apply _ _ (aW2 m c) (aIdx m c) hr j o k
/-- Window 6's array: the third layer's bias, on every lane. -/
theorem staged_b2 (hr : InRange (aIdx m c)) (j : Fin 2048) (o : Fin 64) (l : Fin 128) :
    (V m c main_v73 : S2048x64x128.Idx → EReal) (ix3 j o l) = aB2 m c (ix3 (rowOf (aIdx m c) j) (0 : Fin 1) o) := by
  have e : (V m c main_v73 : S2048x64x128.Idx → EReal)
      = biasRows transposes_S4096x1x64_S4096x64x1_0_2_1 gather_S4096x64x1_S2048x1_S2048x64x1_12_0_n_n_0_1_1641_wf
          bcast_S2048x64x1_S2048x64x128_0_1_2 (aB2 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact biasRows_apply _ _ _ (aB2 m c) (aIdx m c) hr j o l
/-- Window 7's array: the output layer's weight, transposed. -/
theorem staged_w3 (hr : InRange (aIdx m c)) (j : Fin 2048) (o : Fin 3) (k : Fin 64) :
    (V m c main_v49 : S2048x3x64.Idx → EReal) (ix3 j o k) = aW3 m c (ix3 (rowOf (aIdx m c) j) k o) := by
  have e : (V m c main_v49 : S2048x3x64.Idx → EReal)
      = tableRows transposes_S4096x64x3_S4096x3x64_0_2_1
          gather_S4096x3x64_S2048x1_S2048x3x64_12_0_n_n_0_1_1364_wf (aW3 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact tableRows_apply _ _ (aW3 m c) (aIdx m c) hr j o k
/-- Window 8's array: the output layer's bias, on every lane. -/
theorem staged_b3 (hr : InRange (aIdx m c)) (j : Fin 2048) (o : Fin 3) (l : Fin 128) :
    (V m c main_v81 : S2048x3x128.Idx → EReal) (ix3 j o l) = aB3 m c (ix3 (rowOf (aIdx m c) j) (0 : Fin 1) o) := by
  have e : (V m c main_v81 : S2048x3x128.Idx → EReal)
      = biasRows transposes_S4096x1x3_S4096x3x1_0_2_1 gather_S4096x3x1_S2048x1_S2048x3x1_12_0_n_n_0_1_131_wf
          bcast_S2048x3x1_S2048x3x128_0_1_2 (aB3 m c) (aIdx m c) := by
    dsimp only [Gen.V, Gen.V0]
    simp only [Gen.hostOps0, Gen.hostOps0_1, Gen.hostOps0_2, List.flatten_cons, List.flatten_nil, List.append_nil,
      List.cons_append, List.nil_append]
    after_results_simp
    all_goals rfl
  rw [e]
  exact biasRows_apply _ _ _ (aB3 m c) (aIdx m c) hr j o l

end Cert.Siren.Staged

end
-- ==== Proof.Body.lean ====
/-
  What the kernel's body leaves in the output block, read at one element.

  At a grid point the body holds sixteen gathered rows, channels first: the input `x0 : [16, 3, T]`, each weight
  transposed (`x1 : [16, 64, 3]`, `x3`, `x5 : [16, 64, 64]`, `x7 : [16, 3, 64]`) and each bias replicated along 128 lanes
  (`x2`, `x4`, `x6 : [16, 64, 128]`, `x8 : [16, 3, 128]`), of which the body keeps lane 0. Each layer is a batched product
  `W · h` into a zero accumulator plus the bias column; the format changes between layers are the identity on extended
  reals. So element `(g, o, n)` of the stored block is the network of row `g` at position `n`, output channel `o`, the
  factors of each product in the other order.
-/
import proofs.«419069_j66520453480874_3_alg».proof.Proof.Gen.KernelIdeal.Frame
import proofs.«419069_j66520453480874_3_alg».proof.Proof.Siren
import Idealize.ShloMosaic.PureOps.Ideal.Laws
import Idealize.ShloMosaic.Lib.ValueIdx
import Idealize.ShloMosaic.Lib.ValueLayout
import Idealize.ShloMosaic.Lib.Pipeline.Value

noncomputable section

namespace Cert.Siren.Body

open Idealize.ShloMosaic Idealize.ShloMosaic.ValueIdx Cert.KernelIdeal Cert.KernelIdeal.Gen Cert.Siren

/-! ## Layout: the offset of the body's rectangles, and the bias column -/

/-- The body's rectangles sit at offset zero on every axis. -/
theorem hz : (![0, 0, 0] : Fin 3 → Nat) = fun _ => 0 := funext fun a => by fin_cases a <;> rfl

/-- Lane 0 of an [a, b, c] array, cut out as an [a, b, 1] column, reads at (p, q, 0) the array at (p, q, k), where k is
    the lane whose value is zero. -/
theorem slice3_lane0_apply {α : Type} {a b c : ℕ} (X : (⟨3, ![a, b, c]⟩ : Shape).Idx → α)
    (h : (⟨3, ![a, b, c]⟩ : Shape).Slices ![0, 0, 0] ⟨3, ![a, b, 1]⟩) (p : Fin a) (q : Fin b) (k : Fin c) (hk : k.val = 0) :
    extractStridedSlice ⟨3, ![a, b, 1]⟩ ![0, 0, 0] X h (ix3 p q (0 : Fin 1)) = X (ix3 p q k) :=
  extractStridedSlice_apply _ _ _ _ _ (fun ax => by
    match ax with
    | ⟨0, _⟩ => exact (Nat.zero_add _).symm
    | ⟨1, _⟩ => exact (Nat.zero_add _).symm
    | ⟨2, _⟩ => exact hk.trans rfl)

/-- An [a, b, 1] column broadcast to [a, b, c] reads, at (p, q, r), the column at (p, q). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The bias column of a layer, lane 0 of an [a, b, l] block laid along c positions, reads at (g, m, n) the block at
    (g, m, k0), where k0 is the lane whose value is zero. -/
theorem bias_apply {α : Type} {a b c l : ℕ} (B : (⟨3, ![a, b, l]⟩ : Shape).Idx → α) (k0 : Fin l) (hk0 : k0.val = 0)
    (hs : (⟨3, ![a, b, l]⟩ : Shape).Slices ![0, 0, 0] ⟨3, ![a, b, 1]⟩)
    (hb : (⟨3, ![a, b, 1]⟩ : Shape).Broadcasts ⟨3, ![a, b, c]⟩) (g : Fin a) (m : Fin b) (n : Fin c) :
    broadcastTo ⟨3, ![a, b, c]⟩ (extractStridedSlice ⟨3, ![a, b, 1]⟩ ![0, 0, 0] B hs) hb (ix3 g m n) = B (ix3 g m k0) :=
  (broadcastTo_ab1_abc_apply _ hb g m n).trans (slice3_lane0_apply B hs g m k0 hk0)

/-- The bias column of a hidden layer at (g, c, n): the bias block of row g at channel c, lane 0. -/
theorem bias64_apply (B : FVec Ideal S16x64x128 .f32) (hs : S16x64x128.Slices ![0, 0, 0] S16x64x1)
    (hb : S16x64x1.Broadcasts S16x64x1024) (g : Fin 16) (c : Fin 64) (n : Fin 1024) :
    broadcastTo S16x64x1024 (extractStridedSlice S16x64x1 ![0, 0, 0] B hs) hb (ix3 g c n) = B (ix3 g c (0 : Fin 128)) :=
  bias_apply B (0 : Fin 128) rfl hs hb g c n

/-- The bias column of the output layer at (g, o, n): the bias block of row g at channel o, lane 0. -/
theorem bias3_apply (B : FVec Ideal S16x3x128 .f32) (hs : S16x3x128.Slices ![0, 0, 0] S16x3x1)
    (hb : S16x3x1.Broadcasts S16x3x1024) (g : Fin 16) (o : Fin 3) (n : Fin 1024) :
    broadcastTo S16x3x1024 (extractStridedSlice S16x3x1 ![0, 0, 0] B hs) hb (ix3 g o n) = B (ix3 g o (0 : Fin 128)) :=
  bias_apply B (0 : Fin 128) rfl hs hb g o n

/-! ## The operand indices of a product, axis by axis -/

section Axes
variable {sl sr so : Shape} (d : DotDims sl sr so)

/-- On a batch axis the left operand's index is the result index at the axis's place among the batch axes. -/
theorem lhsIdx_val_of_batch (a : Fin sl.rank) (ha : a ∈ d.lhsBatch) (p : Nat) (hp : p < so.rank)
    (hidx : d.lhsBatch.idxOf a = p) (j : so.Idx) (k : d.contr.Idx) : (d.lhsIdx j k a).val = (j ⟨p, hp⟩).val := by
  subst hidx
  unfold DotDims.lhsIdx
  rw [dif_pos ha]
  rfl

/-- On a free axis the left operand's index is the result index at the axis's place after the batch axes. -/
theorem lhsIdx_val_of_free (a : Fin sl.rank) (hb : a ∉ d.lhsBatch) (hn : a ∈ d.lhsNonContracting) (p : Nat) (hp : p < so.rank)
    (hidx : d.lhsBatch.length + d.lhsNonContracting.idxOf a = p) (j : so.Idx) (k : d.contr.Idx) :
    (d.lhsIdx j k a).val = (j ⟨p, hp⟩).val := by
  subst hidx
  unfold DotDims.lhsIdx
  rw [dif_neg hb, dif_pos hn]
  rfl

/-- On a batch axis the right operand's index is the result index at the axis's place among the batch axes. -/
theorem rhsIdx_val_of_batch (a : Fin sr.rank) (ha : a ∈ d.rhsBatch) (p : Nat) (hp : p < so.rank)
    (hidx : d.rhsBatch.idxOf a = p) (j : so.Idx) (k : d.contr.Idx) : (d.rhsIdx j k a).val = (j ⟨p, hp⟩).val := by
  subst hidx
  unfold DotDims.rhsIdx
  rw [dif_pos ha]
  rfl

/-- On a free axis the right operand's index is the result index at the axis's place after the batch axes and the left
    operand's free axes. -/
theorem rhsIdx_val_of_free (a : Fin sr.rank) (hb : a ∉ d.rhsBatch) (hn : a ∈ d.rhsNonContracting) (p : Nat) (hp : p < so.rank)
    (hidx : d.lhsBatch.length + d.lhsNonContracting.length + d.rhsNonContracting.idxOf a = p) (j : so.Idx) (k : d.contr.Idx) :
    (d.rhsIdx j k a).val = (j ⟨p, hp⟩).val := by
  subst hidx
  unfold DotDims.rhsIdx
  rw [dif_neg hb, dif_pos hn]
  rfl

end Axes

/-! ## A batched product W · h into the zero accumulator, at an element -/

/-- A product batched over axis 0 that contracts the weight's axis 2 with the activation's axis 1, into the zero
    accumulator: element (g, c, n) is the sum over k of h (g, k, n) times W (g, c, k). -/
theorem mm_apply {A M K N : ℕ} (D : DotDims ⟨3, ![A, M, K]⟩ ⟨3, ![A, K, N]⟩ ⟨3, ![A, M, N]⟩)
    (hr : D.contr.rank = 1) (hs : D.contr.size ⟨0, by omega⟩ = K)
    (l0 : ∀ (i : (⟨3, ![A, M, N]⟩ : Shape).Idx) (q : D.contr.Idx), (D.lhsIdx i q 0).val = (i 0).val)
    (l1 : ∀ (i : (⟨3, ![A, M, N]⟩ : Shape).Idx) (q : D.contr.Idx), (D.lhsIdx i q 1).val = (i 1).val)
    (l2 : ∀ (i : (⟨3, ![A, M, N]⟩ : Shape).Idx) (q : D.contr.Idx), (D.lhsIdx i q 2).val = (q ⟨0, by omega⟩).val)
    (r0 : ∀ (i : (⟨3, ![A, M, N]⟩ : Shape).Idx) (q : D.contr.Idx), (D.rhsIdx i q 0).val = (i 0).val)
    (r1 : ∀ (i : (⟨3, ![A, M, N]⟩ : Shape).Idx) (q : D.contr.Idx), (D.rhsIdx i q 1).val = (q ⟨0, by omega⟩).val)
    (r2 : ∀ (i : (⟨3, ![A, M, N]⟩ : Shape).Idx) (q : D.contr.Idx), (D.rhsIdx i q 2).val = (i 2).val)
    (W : FVec Ideal ⟨3, ![A, M, K]⟩ .bf16) (h : FVec Ideal ⟨3, ![A, K, N]⟩ .bf16) (g : Fin A) (c : Fin M) (n : Fin N) :
    FloatOps.matmul D none W h (constant (F := Ideal) ⟨3, ![A, M, N]⟩ .f32 0x00000000#32) (ix3 g c n)
      = ∑ k : Fin K, h (ix3 g k n) * W (ix3 g c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix3 g c n) ((contrEquiv1 D K hr hs).symm k) = ix3 g c k := funext fun a => Fin.ext (by
    match a with
    | ⟨0, _⟩ => exact l0 _ _
    | ⟨1, _⟩ => exact l1 _ _
    | ⟨2, _⟩ => exact (l2 _ _).trans hk)
  have er : D.rhsIdx (ix3 g c n) ((contrEquiv1 D K hr hs).symm k) = ix3 g k n := funext fun a => Fin.ext (by
    match a with
    | ⟨0, _⟩ => exact r0 _ _
    | ⟨1, _⟩ => exact (r1 _ _).trans hk
    | ⟨2, _⟩ => exact r2 _ _)
  rw [el, er]
  exact mul_comm _ _

/-- The first layer's product: three input channels. -/
theorem mm1_apply (W : FVec Ideal S16x64x3 .bf16) (h : FVec Ideal S16x3x1024 .bf16) (g : Fin 16) (c : Fin 64) (n : Fin 1024) :
    FloatOps.matmul dot_S16x64x3_S16x3x1024_S16x64x1024_2_1_1_2_0_0 none W h
        (constant (F := Ideal) S16x64x1024 .f32 0x00000000#32) (ix3 g c n)
      = ∑ k : Fin 3, h (ix3 g k n) * W (ix3 g c k) :=
  mm_apply dot_S16x64x3_S16x3x1024_S16x64x1024_2_1_1_2_0_0 rfl rfl
    (fun i q => lhsIdx_val_of_batch dot_S16x64x3_S16x3x1024_S16x64x1024_2_1_1_2_0_0 0 (by decide) 0 (by decide) (by decide) i q)
    (fun i q => lhsIdx_val_of_free dot_S16x64x3_S16x3x1024_S16x64x1024_2_1_1_2_0_0 1 (by decide) (by decide) 1 (by decide) (by decide) i q)
    (fun i q => DotDims.lhsIdx_val_of_single dot_S16x64x3_S16x3x1024_S16x64x1024_2_1_1_2_0_0 rfl i q)
    (fun i q => rhsIdx_val_of_batch dot_S16x64x3_S16x3x1024_S16x64x1024_2_1_1_2_0_0 0 (by decide) 0 (by decide) (by decide) i q)
    (fun i q => DotDims.rhsIdx_val_of_single dot_S16x64x3_S16x3x1024_S16x64x1024_2_1_1_2_0_0 rfl i q)
    (fun i q => rhsIdx_val_of_free dot_S16x64x3_S16x3x1024_S16x64x1024_2_1_1_2_0_0 2 (by decide) (by decide) 2 (by decide) (by decide) i q)
    W h g c n

/-- A hidden layer's product: sixty-four channels in, sixty-four out. -/
theorem mm2_apply (W : FVec Ideal S16x64x64 .bf16) (h : FVec Ideal S16x64x1024 .bf16) (g : Fin 16) (c : Fin 64) (n : Fin 1024) :
    FloatOps.matmul dot_S16x64x64_S16x64x1024_S16x64x1024_2_1_1_2_0_0 none W h
        (constant (F := Ideal) S16x64x1024 .f32 0x00000000#32) (ix3 g c n)
      = ∑ k : Fin 64, h (ix3 g k n) * W (ix3 g c k) :=
  mm_apply dot_S16x64x64_S16x64x1024_S16x64x1024_2_1_1_2_0_0 rfl rfl
    (fun i q => lhsIdx_val_of_batch dot_S16x64x64_S16x64x1024_S16x64x1024_2_1_1_2_0_0 0 (by decide) 0 (by decide) (by decide) i q)
    (fun i q => lhsIdx_val_of_free dot_S16x64x64_S16x64x1024_S16x64x1024_2_1_1_2_0_0 1 (by decide) (by decide) 1 (by decide) (by decide) i q)
    (fun i q => DotDims.lhsIdx_val_of_single dot_S16x64x64_S16x64x1024_S16x64x1024_2_1_1_2_0_0 rfl i q)
    (fun i q => rhsIdx_val_of_batch dot_S16x64x64_S16x64x1024_S16x64x1024_2_1_1_2_0_0 0 (by decide) 0 (by decide) (by decide) i q)
    (fun i q => DotDims.rhsIdx_val_of_single dot_S16x64x64_S16x64x1024_S16x64x1024_2_1_1_2_0_0 rfl i q)
    (fun i q => rhsIdx_val_of_free dot_S16x64x64_S16x64x1024_S16x64x1024_2_1_1_2_0_0 2 (by decide) (by decide) 2 (by decide) (by decide) i q)
    W h g c n

/-- The output layer's product: sixty-four channels in, three out. -/
theorem mm3_apply (W : FVec Ideal S16x3x64 .bf16) (h : FVec Ideal S16x64x1024 .bf16) (g : Fin 16) (o : Fin 3) (n : Fin 1024) :
    FloatOps.matmul dot_S16x3x64_S16x64x1024_S16x3x1024_2_1_1_2_0_0 none W h
        (constant (F := Ideal) S16x3x1024 .f32 0x00000000#32) (ix3 g o n)
      = ∑ k : Fin 64, h (ix3 g k n) * W (ix3 g o k) :=
  mm_apply dot_S16x3x64_S16x64x1024_S16x3x1024_2_1_1_2_0_0 rfl rfl
    (fun i q => lhsIdx_val_of_batch dot_S16x3x64_S16x64x1024_S16x3x1024_2_1_1_2_0_0 0 (by decide) 0 (by decide) (by decide) i q)
    (fun i q => lhsIdx_val_of_free dot_S16x3x64_S16x64x1024_S16x3x1024_2_1_1_2_0_0 1 (by decide) (by decide) 1 (by decide) (by decide) i q)
    (fun i q => DotDims.lhsIdx_val_of_single dot_S16x3x64_S16x64x1024_S16x3x1024_2_1_1_2_0_0 rfl i q)
    (fun i q => rhsIdx_val_of_batch dot_S16x3x64_S16x64x1024_S16x3x1024_2_1_1_2_0_0 0 (by decide) 0 (by decide) (by decide) i q)
    (fun i q => DotDims.rhsIdx_val_of_single dot_S16x3x64_S16x64x1024_S16x3x1024_2_1_1_2_0_0 rfl i q)
    (fun i q => rhsIdx_val_of_free dot_S16x3x64_S16x64x1024_S16x3x1024_2_1_1_2_0_0 2 (by decide) (by decide) 2 (by decide) (by decide) i q)
    W h g o n

/-! ## The activation, and the body -/

/-- The sine of thirty times a block, narrowed to the activations' format, is the activation of each element: the
    narrowing is the identity on extended reals. -/
theorem act_apply {s : Shape} (v : FVec Ideal s .f32) (hlt : FTy.bits .bf16 < FTy.bits .f32) (i : s.Idx) :
    truncf .bf16 (sin (mulf (broadcast s (Scalar.ofBits (F := Ideal) .f32 0x41F00000#32)) v)) hlt i = act (v i) := rfl

/-- What the body stores, at element (g, o, n): the network of the sixteen staged rows at row g. -/
theorem body_apply
    (x0 : Vec Ideal S16x3x1024 .bf16) (x1 : Vec Ideal S16x64x3 .bf16) (x2 : Vec Ideal S16x64x128 .f32)
    (x3 : Vec Ideal S16x64x64 .bf16) (x4 : Vec Ideal S16x64x128 .f32) (x5 : Vec Ideal S16x64x64 .bf16)
    (x6 : Vec Ideal S16x64x128 .f32) (x7 : Vec Ideal S16x3x64 .bf16) (x8 : Vec Ideal S16x3x128 .f32)
    (g : Fin 16) (o : Fin 3) (n : Fin 1024) :
    k0_pay1 (F := Ideal) (k0_pay2 (F := Ideal) x0 x2 x1 x4 x3 x5) (k0_pay3 (F := Ideal) x6) x8 x7 (ix3 g o n)
      = net (fun g n k => x0 (ix3 g k n))
          (fun g k c => x1 (ix3 g c k)) (fun g c => x2 (ix3 g c (0 : Fin 128)))
          (fun g k c => x3 (ix3 g c k)) (fun g c => x4 (ix3 g c (0 : Fin 128)))
          (fun g k c => x5 (ix3 g c k)) (fun g c => x6 (ix3 g c (0 : Fin 128)))
          (fun g k c => x7 (ix3 g c k)) (fun g c => x8 (ix3 g c (0 : Fin 128))) g n o := by
  unfold k0_pay1 k0_pay2 k0_pay3
  simp only [shapeCast_self]
  simp only [addf_apply, act_apply, mm1_apply, mm2_apply, mm3_apply, bias64_apply, bias3_apply]
  rfl

/-- The output block after the body, at element `(g, o, n)`: the network of the sixteen staged rows at row `g`. -/
theorem out_apply
    (x0 : Vec Ideal S16x3x1024 .bf16) (x1 : Vec Ideal S16x64x3 .bf16) (x2 : Vec Ideal S16x64x128 .f32)
    (x3 : Vec Ideal S16x64x64 .bf16) (x4 : Vec Ideal S16x64x128 .f32) (x5 : Vec Ideal S16x64x64 .bf16)
    (x6 : Vec Ideal S16x64x128 .f32) (x7 : Vec Ideal S16x3x64 .bf16) (x8 : Vec Ideal S16x3x128 .f32)
    (g : Fin 16) (o : Fin 3) (n : Fin 1024) :
    out0_9 (F := Ideal) x0 x1 x2 x3 x4 x5 x6 x7 x8 (ix3 g o n)
      = net (fun g n k => x0 (ix3 g k n))
          (fun g k c => x1 (ix3 g c k)) (fun g c => x2 (ix3 g c (0 : Fin 128)))
          (fun g k c => x3 (ix3 g c k)) (fun g c => x4 (ix3 g c (0 : Fin 128)))
          (fun g k c => x5 (ix3 g c k)) (fun g c => x6 (ix3 g c (0 : Fin 128)))
          (fun g k c => x7 (ix3 g c k)) (fun g c => x8 (ix3 g c (0 : Fin 128))) g n o := by
  unfold out0_9
  rw [View.canon_unit_zero hz]
  simp only [View.ld_unit_zero (S := S16x3x1024) hz, View.ld_unit_zero (S := S16x64x128) hz,
    View.ld_unit_zero (S := S16x64x3) hz, View.ld_unit_zero (S := S16x64x64) hz,
    View.ld_unit_zero (S := S16x3x128) hz, View.ld_unit_zero (S := S16x3x64) hz]
  exact body_apply x0 x1 x2 x3 x4 x5 x6 x7 x8 g o n

end Cert.Siren.Body

end
-- ==== Proof.Blocks.lean ====
/-
  From the blocks the grid points write back to the kernel's whole output array.

  The grid has 128 points; at point `t` every window holds block `t` of its array along the rows (sixteen rows) and
  the whole of the other two axes. So element `(g, a, b)` of a block at point `t` is element `(16 t + g, a, b)` of the
  array, the output's blocks tile its array, and the array after the run is, at `(j, o, n)`, the network of row
  `rowOf idx j` at position `n`, output channel `o` (channels first: the host transposes afterwards).
-/
import proofs.«419069_j66520453480874_3_alg».proof.Proof.Gen.KernelIdeal.Frame
import proofs.«419069_j66520453480874_3_alg».proof.Proof.Siren
import proofs.«419069_j66520453480874_3_alg».proof.Proof.Staged
import proofs.«419069_j66520453480874_3_alg».proof.Proof.Body
import Idealize.ShloMosaic.Lib.Pipeline.Value
import Idealize.ShloMosaic.Lib.ValueIdx

set_option maxRecDepth 16384

noncomputable section

namespace Cert.Siren.Blocks

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Siren Cert.Siren.Staged

variable (m : (ℓ : Loc nD τ sig) → Buf (Elt Ideal) ℓ)

/-- The kernel's output array, channels first: `(j, o, n) ↦` the network of row `rowOf idx j` at position `n`, channel `o`. -/
def Gk (c : Dev nD) : S2048x3x1024.Idx → EReal := fun i =>
  net (rows3 (aInp m c)) (rows3 (aW0 m c)) (rowsB (aB0 m c)) (rows3 (aW1 m c)) (rowsB (aB1 m c))
    (rows3 (aW2 m c)) (rowsB (aB2 m c)) (rows3 (aW3 m c)) (rowsB (aB3 m c))
    (rowOf (aIdx m c) ⟨(i 0).val, (i 0).isLt⟩) ⟨(i 2).val, (i 2).isLt⟩ ⟨(i 1).val, (i 1).isLt⟩

/-- Row `g` of the block at point `t` is row `16 t + g` of the array. -/
def gl (t : Fin cfg0.N) (g : Fin 16) : Fin 2048 :=
  ⟨t.val * 16 + g.val, by have ht : t.val < 128 := t.isLt; have hg := g.isLt; omega⟩

/-! ## The printed index maps, decided over the grid: block `t` along the rows, block 0 along the other two axes -/

theorem idx_facts0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_facts1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_facts2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_facts5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_facts6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_facts7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_facts8 : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_facts9 : ∀ t : Fin cfg0.N, win0_9.index t (0 : Fin 3) = t.val ∧ win0_9.index t (1 : Fin 3) = 0 ∧ win0_9.index t (2 : Fin 3) = 0 :=
  (by decide +kernel : ∀ t : Fin grid0.N, _)

/-! ## Each input window's block at a point, read at one element

A block's coordinate is always index × size + 1 × the coordinate inside the block. -/

/-- The input block `[16, 3, T]` at `(g, k, n)`: the input table at row `16 t + g`'s named row, position `n`, channel `k`. -/
theorem blk0 (c : Dev nD) (hr : InRange (aIdx m c)) (t : Fin cfg0.N) (g : Fin 16) (k : Fin 3) (n : Fin 1024) :
    iblk m c 0 t (ix3 g k n) = aInp m c (ix3 (rowOf (aIdx m c) (gl t g)) n k) := by
  show V m c main_v21 (((cfg0.win 0).blk t).view.emb (ix3 g k n)) = _
  have he : ((cfg0.win 0).blk t).view.emb (ix3 g k n) = ix3 (gl t g) k n := by
    obtain ⟨e0, e1, e2⟩ := idx_facts0 t
    funext d; apply Fin.ext
    match d with
    | ⟨0, _⟩ => show win0_0.index t (0 : Fin 3) * 16 + 1 * g.val = t.val * 16 + g.val; omega
    | ⟨1, _⟩ => show win0_0.index t (1 : Fin 3) * 3 + 1 * k.val = k.val; omega
    | ⟨2, _⟩ => show win0_0.index t (2 : Fin 3) * 1024 + 1 * n.val = n.val; omega
  rw [he]
  exact staged_x m c hr (gl t g) k n

/-- The first weight block `[16, 64, 3]` at `(g, o, k)`: the weight table at the named row, `(k, o)`. -/
theorem blk1 (c : Dev nD) (hr : InRange (aIdx m c)) (t : Fin cfg0.N) (g : Fin 16) (o : Fin 64) (k : Fin 3) :
    iblk m c 1 t (ix3 g o k) = aW0 m c (ix3 (rowOf (aIdx m c) (gl t g)) k o) := by
  show V m c main_v28 (((cfg0.win 1).blk t).view.emb (ix3 g o k)) = _
  have he : ((cfg0.win 1).blk t).view.emb (ix3 g o k) = ix3 (gl t g) o k := by
    obtain ⟨e0, e1, e2⟩ := idx_facts1 t
    funext d; apply Fin.ext
    match d with
    | ⟨0, _⟩ => show win0_1.index t (0 : Fin 3) * 16 + 1 * g.val = t.val * 16 + g.val; omega
    | ⟨1, _⟩ => show win0_1.index t (1 : Fin 3) * 64 + 1 * o.val = o.val; omega
    | ⟨2, _⟩ => show win0_1.index t (2 : Fin 3) * 3 + 1 * k.val = k.val; omega
  rw [he]
  exact staged_w0 m c hr (gl t g) o k

/-- The first bias block `[16, 64, 128]` at `(g, o, l)`, any lane `l`: the bias table at the named row, channel `o`. -/
theorem blk2 (c : Dev nD) (hr : InRange (aIdx m c)) (t : Fin cfg0.N) (g : Fin 16) (o : Fin 64) (l : Fin 128) :
    iblk m c 2 t (ix3 g o l) = aB0 m c (ix3 (rowOf (aIdx m c) (gl t g)) (0 : Fin 1) o) := by
  show V m c main_v57 (((cfg0.win 2).blk t).view.emb (ix3 g o l)) = _
  have he : ((cfg0.win 2).blk t).view.emb (ix3 g o l) = ix3 (gl t g) o l := by
    obtain ⟨e0, e1, e2⟩ := idx_facts2 t
    funext d; apply Fin.ext
    match d with
    | ⟨0, _⟩ => show win0_2.index t (0 : Fin 3) * 16 + 1 * g.val = t.val * 16 + g.val; omega
    | ⟨1, _⟩ => show win0_2.index t (1 : Fin 3) * 64 + 1 * o.val = o.val; omega
    | ⟨2, _⟩ => show win0_2.index t (2 : Fin 3) * 128 + 1 * l.val = l.val; omega
  rw [he]
  exact staged_b0 m c hr (gl t g) o l

/-- The second weight block `[16, 64, 64]` at `(g, o, k)`: the weight table at the named row, `(k, o)`. -/
theorem blk3 (c : Dev nD) (hr : InRange (aIdx m c)) (t : Fin cfg0.N) (g : Fin 16) (o : Fin 64) (k : Fin 64) :
    iblk m c 3 t (ix3 g o k) = aW1 m c (ix3 (rowOf (aIdx m c) (gl t g)) k o) := by
  show V m c main_v35 (((cfg0.win 3).blk t).view.emb (ix3 g o k)) = _
  have he : ((cfg0.win 3).blk t).view.emb (ix3 g o k) = ix3 (gl t g) o k := by
    obtain ⟨e0, e1, e2⟩ := idx_facts3 t
    funext d; apply Fin.ext
    match d with
    | ⟨0, _⟩ => show win0_3.index t (0 : Fin 3) * 16 + 1 * g.val = t.val * 16 + g.val; omega
    | ⟨1, _⟩ => show win0_3.index t (1 : Fin 3) * 64 + 1 * o.val = o.val; omega
    | ⟨2, _⟩ => show win0_3.index t (2 : Fin 3) * 64 + 1 * k.val = k.val; omega
  rw [he]
  exact staged_w1 m c hr (gl t g) o k

/-- The second bias block at `(g, o, l)`, any lane: the bias table at the named row, channel `o`. -/
theorem blk4 (c : Dev nD) (hr : InRange (aIdx m c)) (t : Fin cfg0.N) (g : Fin 16) (o : Fin 64) (l : Fin 128) :
    iblk m c 4 t (ix3 g o l) = aB1 m c (ix3 (rowOf (aIdx m c) (gl t g)) (0 : Fin 1) o) := by
  show V m c main_v65 (((cfg0.win 4).blk t).view.emb (ix3 g o l)) = _
  have he : ((cfg0.win 4).blk t).view.emb (ix3 g o l) = ix3 (gl t g) o l := by
    obtain ⟨e0, e1, e2⟩ := idx_facts4 t
    funext d; apply Fin.ext
    match d with
    | ⟨0, _⟩ => show win0_4.index t (0 : Fin 3) * 16 + 1 * g.val = t.val * 16 + g.val; omega
    | ⟨1, _⟩ => show win0_4.index t (1 : Fin 3) * 64 + 1 * o.val = o.val; omega
    | ⟨2, _⟩ => show win0_4.index t (2 : Fin 3) * 128 + 1 * l.val = l.val; omega
  rw [he]
  exact staged_b1 m c hr (gl t g) o l

/-- The third weight block at `(g, o, k)`: the weight table at the named row, `(k, o)`. -/
theorem blk5 (c : Dev nD) (hr : InRange (aIdx m c)) (t : Fin cfg0.N) (g : Fin 16) (o : Fin 64) (k : Fin 64) :
    iblk m c 5 t (ix3 g o k) = aW2 m c (ix3 (rowOf (aIdx m c) (gl t g)) k o) := by
  show V m c main_v42 (((cfg0.win 5).blk t).view.emb (ix3 g o k)) = _
  have he : ((cfg0.win 5).blk t).view.emb (ix3 g o k) = ix3 (gl t g) o k := by
    obtain ⟨e0, e1, e2⟩ := idx_facts5 t
    funext d; apply Fin.ext
    match d with
    | ⟨0, _⟩ => show win0_5.index t (0 : Fin 3) * 16 + 1 * g.val = t.val * 16 + g.val; omega
    | ⟨1, _⟩ => show win0_5.index t (1 : Fin 3) * 64 + 1 * o.val = o.val; omega
    | ⟨2, _⟩ => show win0_5.index t (2 : Fin 3) * 64 + 1 * k.val = k.val; omega
  rw [he]
  exact staged_w2 m c hr (gl t g) o k

/-- The third bias block at `(g, o, l)`, any lane: the bias table at the named row, channel `o`. -/
theorem blk6 (c : Dev nD) (hr : InRange (aIdx m c)) (t : Fin cfg0.N) (g : Fin 16) (o : Fin 64) (l : Fin 128) :
    iblk m c 6 t (ix3 g o l) = aB2 m c (ix3 (rowOf (aIdx m c) (gl t g)) (0 : Fin 1) o) := by
  show V m c main_v73 (((cfg0.win 6).blk t).view.emb (ix3 g o l)) = _
  have he : ((cfg0.win 6).blk t).view.emb (ix3 g o l) = ix3 (gl t g) o l := by
    obtain ⟨e0, e1, e2⟩ := idx_facts6 t
    funext d; apply Fin.ext
    match d with
    | ⟨0, _⟩ => show win0_6.index t (0 : Fin 3) * 16 + 1 * g.val = t.val * 16 + g.val; omega
    | ⟨1, _⟩ => show win0_6.index t (1 : Fin 3) * 64 + 1 * o.val = o.val; omega
    | ⟨2, _⟩ => show win0_6.index t (2 : Fin 3) * 128 + 1 * l.val = l.val; omega
  rw [he]
  exact staged_b2 m c hr (gl t g) o l

/-- The output weight block `[16, 3, 64]` at `(g, o, k)`: the weight table at the named row, `(k, o)`. -/
theorem blk7 (c : Dev nD) (hr : InRange (aIdx m c)) (t : Fin cfg0.N) (g : Fin 16) (o : Fin 3) (k : Fin 64) :
    iblk m c 7 t (ix3 g o k) = aW3 m c (ix3 (rowOf (aIdx m c) (gl t g)) k o) := by
  show V m c main_v49 (((cfg0.win 7).blk t).view.emb (ix3 g o k)) = _
  have he : ((cfg0.win 7).blk t).view.emb (ix3 g o k) = ix3 (gl t g) o k := by
    obtain ⟨e0, e1, e2⟩ := idx_facts7 t
    funext d; apply Fin.ext
    match d with
    | ⟨0, _⟩ => show win0_7.index t (0 : Fin 3) * 16 + 1 * g.val = t.val * 16 + g.val; omega
    | ⟨1, _⟩ => show win0_7.index t (1 : Fin 3) * 3 + 1 * o.val = o.val; omega
    | ⟨2, _⟩ => show win0_7.index t (2 : Fin 3) * 64 + 1 * k.val = k.val; omega
  rw [he]
  exact staged_w3 m c hr (gl t g) o k

/-- The output bias block `[16, 3, 128]` at `(g, o, l)`, any lane: the bias table at the named row, channel `o`. -/
theorem blk8 (c : Dev nD) (hr : InRange (aIdx m c)) (t : Fin cfg0.N) (g : Fin 16) (o : Fin 3) (l : Fin 128) :
    iblk m c 8 t (ix3 g o l) = aB3 m c (ix3 (rowOf (aIdx m c) (gl t g)) (0 : Fin 1) o) := by
  show V m c main_v81 (((cfg0.win 8).blk t).view.emb (ix3 g o l)) = _
  have he : ((cfg0.win 8).blk t).view.emb (ix3 g o l) = ix3 (gl t g) o l := by
    obtain ⟨e0, e1, e2⟩ := idx_facts8 t
    funext d; apply Fin.ext
    match d with
    | ⟨0, _⟩ => show win0_8.index t (0 : Fin 3) * 16 + 1 * g.val = t.val * 16 + g.val; omega
    | ⟨1, _⟩ => show win0_8.index t (1 : Fin 3) * 3 + 1 * o.val = o.val; omega
    | ⟨2, _⟩ => show win0_8.index t (2 : Fin 3) * 128 + 1 * l.val = l.val; omega
  rw [he]
  exact staged_b3 m c hr (gl t g) o l

/-! ## What a point writes back, the cover, the array -/

/-- WHAT POINT `t` WRITES BACK is block `t` of `Gk`: the body's network of the sixteen staged rows is the network of the
    rows they were gathered from. -/
theorem flushed_eq (c : Dev nD) (hr : InRange (aIdx m c)) (t : Fin cfg0.N) :
    (dats m 0 c).flushed 9 t = ((cfg0.win 9).blk t).view.read (Elt Ideal) (Gk m c) := by
  show (cfg0.win 9).cut (grid0.coords t) ((dats m 0 c).after 9 t) = _
  rw [after0_9]
  funext y
  obtain ⟨g, o, n, rfl⟩ : ∃ (g : Fin 16) (o : Fin 3) (n : Fin 1024), y = ix3 g o n :=
    ⟨y 0, y 1, y 2, eq_ix3 (n0 := 16) (n1 := 3) (n2 := 1024) y⟩
  show out0_9 (iblk m c 0 t) (iblk m c 1 t) (iblk m c 2 t) (iblk m c 3 t) (iblk m c 4 t) (iblk m c 5 t) (iblk m c 6 t)
      (iblk m c 7 t) (iblk m c 8 t) (ix3 g o n) = Gk m c (((cfg0.win 9).blk t).view.emb (ix3 g o n))
  have he : ((cfg0.win 9).blk t).view.emb (ix3 g o n) = ix3 (gl t g) o n := by
    obtain ⟨e0, e1, e2⟩ := idx_facts9 t
    funext d; apply Fin.ext
    match d with
    | ⟨0, _⟩ => show win0_9.index t (0 : Fin 3) * 16 + 1 * g.val = t.val * 16 + g.val; omega
    | ⟨1, _⟩ => show win0_9.index t (1 : Fin 3) * 3 + 1 * o.val = o.val; omega
    | ⟨2, _⟩ => show win0_9.index t (2 : Fin 3) * 1024 + 1 * n.val = n.val; omega
  rw [he]
  refine (Body.out_apply (iblk m c 0 t) (iblk m c 1 t) (iblk m c 2 t) (iblk m c 3 t) (iblk m c 4 t) (iblk m c 5 t)
    (iblk m c 6 t) (iblk m c 7 t) (iblk m c 8 t) g o n).trans ?_
  have h0 : (fun (g : Fin 16) (n : Fin 1024) (k : Fin 3) => iblk m c 0 t (ix3 g k n))
      = fun g => rows3 (aInp m c) (rowOf (aIdx m c) (gl t g)) := by
    funext g n k; exact blk0 m c hr t g k n
  have h1 : (fun (g : Fin 16) (k : Fin 3) (o : Fin 64) => iblk m c 1 t (ix3 g o k))
      = fun g => rows3 (aW0 m c) (rowOf (aIdx m c) (gl t g)) := by
    funext g k o; exact blk1 m c hr t g o k
  have h2 : (fun (g : Fin 16) (o : Fin 64) => iblk m c 2 t (ix3 g o (0 : Fin 128)))
      = fun g => rowsB (aB0 m c) (rowOf (aIdx m c) (gl t g)) := by
    funext g o; exact blk2 m c hr t g o 0
  have h3 : (fun (g : Fin 16) (k : Fin 64) (o : Fin 64) => iblk m c 3 t (ix3 g o k))
      = fun g => rows3 (aW1 m c) (rowOf (aIdx m c) (gl t g)) := by
    funext g k o; exact blk3 m c hr t g o k
  have h4 : (fun (g : Fin 16) (o : Fin 64) => iblk m c 4 t (ix3 g o (0 : Fin 128)))
      = fun g => rowsB (aB1 m c) (rowOf (aIdx m c) (gl t g)) := by
    funext g o; exact blk4 m c hr t g o 0
  have h5 : (fun (g : Fin 16) (k : Fin 64) (o : Fin 64) => iblk m c 5 t (ix3 g o k))
      = fun g => rows3 (aW2 m c) (rowOf (aIdx m c) (gl t g)) := by
    funext g k o; exact blk5 m c hr t g o k
  have h6 : (fun (g : Fin 16) (o : Fin 64) => iblk m c 6 t (ix3 g o (0 : Fin 128)))
      = fun g => rowsB (aB2 m c) (rowOf (aIdx m c) (gl t g)) := by
    funext g o; exact blk6 m c hr t g o 0
  have h7 : (fun (g : Fin 16) (k : Fin 64) (o : Fin 3) => iblk m c 7 t (ix3 g o k))
      = fun g => rows3 (aW3 m c) (rowOf (aIdx m c) (gl t g)) := by
    funext g k o; exact blk7 m c hr t g o k
  have h8 : (fun (g : Fin 16) (o : Fin 3) => iblk m c 8 t (ix3 g o (0 : Fin 128)))
      = fun g => rowsB (aB3 m c) (rowOf (aIdx m c) (gl t g)) := by
    funext g o; exact blk8 m c hr t g o 0
  rw [h0, h1, h2, h3, h4, h5, h6, h7, h8]
  exact net_comp (fun g => rowOf (aIdx m c) (gl t g)) (rows3 (aInp m c)) (rows3 (aW0 m c)) (rowsB (aB0 m c))
    (rows3 (aW1 m c)) (rowsB (aB1 m c)) (rows3 (aW2 m c)) (rowsB (aB2 m c)) (rows3 (aW3 m c)) (rowsB (aB3 m c)) g n o

/-- An index of the output array is in point `t`'s block iff each coordinate is in the block's range on its axis. -/
theorem mem_blk (t : Fin cfg0.N) (i : S2048x3x1024.Idx) :
    i ∈ ((cfg0.win 9).blk t).view.set ↔ ∀ a : Fin 3, win0_9.index t a * S16x3x1024.size a ≤ (i a).val
      ∧ (i a).val < win0_9.index t a * S16x3x1024.size a + S16x3x1024.size a := by
  show i ∈ ((View.whole main_v82).slice (win0_9.rect t)).set ↔ _
  rw [View.set_slice_whole, Rect.mem_set_unit]
  exact Iff.rfl

/-- Every index of the output array is in some point's block: row `r` is in block `r / 16`. -/
theorem cover (i : S2048x3x1024.Idx) :
    ∃ t : Fin cfg0.N, (cfg0.win 9).flush t = true ∧ i ∈ ((cfg0.win 9).blk t).view.set := by
  have hi0 : (i 0).val < 2048 := (i 0).isLt
  have hi1 : (i 1).val < 3 := (i 1).isLt
  have hi2 : (i 2).val < 1024 := (i 2).isLt
  have ht : (i 0).val / 16 < 128 := by omega
  obtain ⟨e0, e1, e2⟩ := idx_facts9 ⟨(i 0).val / 16, ht⟩
  have e0' : win0_9.index ⟨(i 0).val / 16, ht⟩ (0 : Fin 3) = (i 0).val / 16 := e0
  refine ⟨⟨(i 0).val / 16, ht⟩, flush0_9 _, ?_⟩
  rw [mem_blk]
  intro a
  match a with
  | ⟨0, _⟩ =>
    show win0_9.index ⟨(i 0).val / 16, ht⟩ (0 : Fin 3) * 16 ≤ (i 0).val
      ∧ (i 0).val < win0_9.index ⟨(i 0).val / 16, ht⟩ (0 : Fin 3) * 16 + 16
    omega
  | ⟨1, _⟩ =>
    show win0_9.index ⟨(i 0).val / 16, ht⟩ (1 : Fin 3) * 3 ≤ (i 1).val
      ∧ (i 1).val < win0_9.index ⟨(i 0).val / 16, ht⟩ (1 : Fin 3) * 3 + 3
    omega
  | ⟨2, _⟩ =>
    show win0_9.index ⟨(i 0).val / 16, ht⟩ (2 : Fin 3) * 1024 ≤ (i 2).val
      ∧ (i 2).val < win0_9.index ⟨(i 0).val / 16, ht⟩ (2 : Fin 3) * 1024 + 1024
    omega

/-- THE OUTPUT ARRAY after the run is `Gk`. -/
theorem final (c : Dev nD) (hr : InRange (aIdx m c)) : (dats m 0 c).arrAt 9 cfg0.N = Gk m c :=
  (dats m 0 c).arrAt_eq_of_cover 9 (Gk m c) (fun t _ => flushed_eq m c hr t) cover

end Cert.Siren.Blocks

end
-- ==== Proof.KernelRun.lean ====
/-
  The idealized kernel's run, read: its result array is the network `G` of the argument arrays.

  After the call the host transposes the kernel's output `[2048, 3, T]` to `[2048, T, 3]`: element `(j, n, o)` of the result
  is element `(j, o, n)` of the output array, which is the network of row `rowOf idx j` at position `n`, channel `o`.
-/
import proofs.«419069_j66520453480874_3_alg».proof.Proof.Gen.KernelIdeal.Frame
import proofs.«419069_j66520453480874_3_alg».proof.Proof.Siren
import proofs.«419069_j66520453480874_3_alg».proof.Proof.Staged
import proofs.«419069_j66520453480874_3_alg».proof.Proof.Blocks
import Idealize.ShloMosaic.Lib.StableHlo.Run
import Idealize.ShloMosaic.Lib.Pipeline.Value
import Idealize.ShloMosaic.Lib.ValueIdx

set_option maxRecDepth 16384

noncomputable section

namespace Cert.Siren.KernelRun

open Idealize.ShloMosaic Idealize.ShloMosaic.ValueIdx Idealize.ShloMosaic.StableHlo Idealize.ShloMosaic.TcCoe Idealize.SL.Sem
open Cert.KernelIdeal Cert.KernelIdeal.Gen Cert.Siren Cert.Siren.Staged Cert.Siren.Blocks

variable (m : (ℓ : Loc nD τ sig) → Buf (Elt Ideal) ℓ) (ρ : Dev nD → PrngReg)

/-- The network, channels first, transposed back is the network. -/
theorem transposed_Gk (c : Dev nD) :
    transpose S2048x1024x3 [0, 2, 1] (Gk m c) transposes_S2048x3x1024_S2048x1024x3_0_2_1
      = G (aInp m c) (aIdx m c) (aW0 m c) (aB0 m c) (aW1 m c) (aB1 m c) (aW2 m c) (aB2 m c) (aW3 m c) (aB3 m c) := by
  funext i
  obtain ⟨j, n, o, rfl⟩ : ∃ (j : Fin 2048) (n : Fin 1024) (o : Fin 3), i = ix3 j n o :=
    ⟨i 0, i 1, i 2, eq_ix3 (n0 := 2048) (n1 := 1024) (n2 := 3) i⟩
  rw [transpose_apply [0, 2, 1] (Gk m c) transposes_S2048x3x1024_S2048x1024x3_0_2_1 (ix3 j n o) (ix3 j o n)
    (fun b => match b with | ⟨0, _⟩ => rfl | ⟨1, _⟩ => rfl | ⟨2, _⟩ => rfl)]
  rfl

/-- The result buffer after the host's last line: the transposed output array, which is `G`. -/
theorem tail_eq (c : Dev nD) (hr : InRange (aIdx m c)) :
    Pipeline.afterTail₀ cfgs (dats m) 0 (V0 m) [hostOps1] c main_v83
      = G (aInp m c) (aIdx m c) (aW0 m c) (aB0 m c) (aW1 m c) (aB1 m c) (aW2 m c) (aB2 m c) (aW3 m c) (aB3 m c) := by
  unfold Pipeline.afterTail₀
  show StableHlo.after hostOps1 _ (Proc.devRef .tc main_v83) = _
  after_results
  have harr : Pipeline.withArrays spec0 c (V0 m c) (fun w => (dats m 0 c).arrAt w cfg0.N) (Proc.devRef .tc main_v82)
      = Gk m c :=
    (Pipeline.withArrays_arr spec0 launch0.win.arr_inj c _ _ 9).trans (final m c hr)
  exact (congrArg (fun x => transpose S2048x1024x3 [0, 2, 1] x transposes_S2048x3x1024_S2048x1024x3_0_2_1) harr).trans
    (transposed_Gk m c)

/-- THE RUN: every weakly fair execution of the idealized kernel ends with the result at `G` of the arguments, which are
    unchanged. -/
theorem run (hr : ∀ c : Dev nD, InRange (aIdx m c)) :
    θ_run defs (onTc (τ := τ) (main (F := Ideal))) ⟨m, fun _ => 0, ρ⟩ (fun r => ∀ c : Dev nD,
      r.2.mem ((c.tc : Thread nD τ).loc main_v83)
        = G (aInp m c) (aIdx m c) (aW0 m c) (aB0 m c) (aW1 m c) (aB1 m c) (aW2 m c) (aB2 m c) (aW3 m c) (aB3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v83 (Pipeline.mem_restRefs_of main_v83 (by decide) (by decide))).trans (tail_eq m c (hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.Siren.KernelRun

end
-- ==== Proof.lean ====
/-
  A SIREN evaluated block by block: the kernel against its reference, over the extended reals.

  Each of 2048 index words names one of 4096 rows; a row carries an input `[T, 3]` and four layers of weights and biases;
  the result at `(j, t, o)` is the network of the row word `j` names — three times `h ↦ sin (30 · (h · W + b))`, then one
  more linear layer — at position `t`, output channel `o` (`Cert.Siren.G`).

  The reference gathers the named rows and runs the four layers on the gathered tables. The kernel gathers the same rows
  channels first (every table transposed, the biases replicated along the lanes), runs sixteen rows per grid point with the
  products in the other order, and the host transposes the result back. Over the extended reals a change of float format
  is the identity, a product commutes and a finite sum does not depend on its order, so both are `G`: no distributive
  law is used, and finiteness of the float inputs is never opened.

  What is used of the precondition is its last conjunct: every index word, read signed, lies in `[0, 4096)`. For such a
  word the reference's wrap of negative words and the kernel's clip into `[0, 4095]` both leave it alone, so both gathers
  read the same row. (For a word in `[-4095, -1]` they would not: the reference wraps it to a row near the end of the
  table, the kernel clips it to row 0.)

  The three frames: the two kernels' are the generated frame certificates; the reference's is its generated run with the
  result dropped. The idealization rewrote no operation, so what it preserves is trivial.
-/
import proofs.«419069_j66520453480874_3_alg».proof.Defs
import proofs.«419069_j66520453480874_3_alg».proof.Proof.Gen.Kernel
import proofs.«419069_j66520453480874_3_alg».proof.Proof.Gen.Kernel.Skeleton
import proofs.«419069_j66520453480874_3_alg».proof.Proof.Gen.Kernel.Launch
import proofs.«419069_j66520453480874_3_alg».proof.Proof.Gen.Kernel.Points
import proofs.«419069_j66520453480874_3_alg».proof.Proof.Gen.Kernel.Frame
import proofs.«419069_j66520453480874_3_alg».proof.Proof.Gen.KernelIdeal
import proofs.«419069_j66520453480874_3_alg».proof.Proof.Gen.KernelIdeal.Skeleton
import proofs.«419069_j66520453480874_3_alg».proof.Proof.Gen.KernelIdeal.Launch
import proofs.«419069_j66520453480874_3_alg».proof.Proof.Gen.KernelIdeal.Points
import proofs.«419069_j66520453480874_3_alg».proof.Proof.Gen.KernelIdeal.Frame
import proofs.«419069_j66520453480874_3_alg».proof.Proof.Gen.ReferenceIdeal
import proofs.«419069_j66520453480874_3_alg».proof.Proof.Gen.ReferenceIdeal.Run
import proofs.«419069_j66520453480874_3_alg».proof.Proof.Gen.ReferenceIdeal.Read
import proofs.«419069_j66520453480874_3_alg».proof.Proof.Gen.Pre_finite_inputs
import proofs.«419069_j66520453480874_3_alg».proof.Proof.Siren
import proofs.«419069_j66520453480874_3_alg».proof.Proof.IndexRange
import proofs.«419069_j66520453480874_3_alg».proof.Proof.Reference
import proofs.«419069_j66520453480874_3_alg».proof.Proof.KernelRun
import Idealize.ShloMosaic.Adequacy
import Idealize.ShloMosaic.Init

noncomputable section

namespace Cert.Proof

open Idealize.ShloMosaic Idealize.SL.Sem Cert.Siren

/-- The word-level kernel runs and keeps its arguments: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result at `G` of the arguments: the kernel by its
    run read block by block, the reference by its run read stage by stage; the index words are in range by the
    precondition. -/
theorem algebraic : Cert.algebraic_KernelIdeal_ReferenceIdeal := by
  intro m ρ m' ρ' hpre hagree
  have hr : ∀ c : Dev Cert.KernelIdeal.nD, InRange (Cert.Siren.Staged.aIdx m c) := fun c =>
    inRange_of_pre _ _ _ _ _ _ _ _ _ _ (hpre c)
  refine ⟨fun c => G (Cert.Siren.Staged.aInp m c) (Cert.Siren.Staged.aIdx m c) (Cert.Siren.Staged.aW0 m c)
    (Cert.Siren.Staged.aB0 m c) (Cert.Siren.Staged.aW1 m c) (Cert.Siren.Staged.aB1 m c) (Cert.Siren.Staged.aW2 m c)
    (Cert.Siren.Staged.aB2 m c) (Cert.Siren.Staged.aW3 m c) (Cert.Siren.Staged.aB3 m c),
    Cert.Siren.KernelRun.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v83_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact Cert.Siren.Reference.result_eq _ _ _ _ _ _ _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
